-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S200000x64 : Shape := ⟨2, ![200000, 64]⟩
abbrev S2000000 : Shape := ⟨1, ![2000000]⟩
abbrev S64x64 : Shape := ⟨2, ![64, 64]⟩
abbrev S64 : Shape := ⟨1, ![64]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg12 : FVec F S64x64 .f32) (main_arg13 : FVec F S64x64 .f32) (main_arg14 : FVec F S64 .f32) (main_v33 : IVec S_ 1) : IVec S_ 1 :=
  let main_v34 : FVec F S64x64 .f32 := Host.absf main_arg12
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg13
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg14
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg9 : FVec F S64x64 .f32) (main_arg10 : FVec F S64 .f32) (main_arg11 : FVec F S64x64 .f32) (main_arg12 : FVec F S64x64 .f32) (main_arg13 : FVec F S64x64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg9
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg10
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg11
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg12 main_arg13 main_arg14 main_v33

def fn {F : FTy → Type} [FloatOps F] (main_arg0 : FVec F S500000x64 .f32) (main_arg1 : FVec F S200000x64 .f32) (main_arg2 : IVec S2000000 32) (main_arg3 : IVec S2000000 32) (main_arg4 : IVec S2000000 32) (main_arg5 : IVec S2000000 32) (main_arg6 : IVec S2000000 32) (main_arg7 : FVec F S64x64 .f32) (main_arg8 : FVec F S64 .f32) (main_arg9 : FVec F S64x64 .f32) (main_arg10 : FVec F S64 .f32) (main_arg11 : FVec F S64x64 .f32) (main_arg12 : FVec F S64x64 .f32) (main_arg13 : FVec F S64x64 .f32) (main_arg14 : FVec F S64 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S64x64 .f32 := Host.absf main_arg7
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg8
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg9 main_arg10 main_arg11 main_arg12 main_arg13 main_arg14 main_v13 main_v16
-- ==== Kernel.lean ====
abbrev S500000x64 : Shape := ⟨2, ![500000, 64]⟩
abbrev S200000x64 : Shape := ⟨2, ![200000, 64]⟩
abbrev S2000000 : Shape := ⟨1, ![2000000]⟩
abbrev S64x64 : Shape := ⟨2, ![64, 64]⟩
abbrev S64 : Shape := ⟨1, ![64]⟩
abbrev S1x64 : Shape := ⟨2, ![1, 64]⟩
abbrev S4000x64 : Shape := ⟨2, ![4000, 64]⟩
abbrev S_ : Shape := ⟨0, ![]⟩
abbrev S2000000x1 : Shape := ⟨2, ![2000000, 1]⟩
abbrev S2000000x64 : Shape := ⟨2, ![2000000, 64]⟩
abbrev S8000x64 : Shape := ⟨2, ![8000, 64]⟩

abbrev nBuf : Space → Nat
  | .hbm => 60
  | .vmem => 36
  | .smem => 0
  | _ => 0

abbrev bufTy : (tb : Table) → Fin (tcTables nBuf tb) → BufTy
  | .hbm, ⟨0, _⟩ => ⟨S500000x64, .f32⟩
  | .hbm, ⟨1, _⟩ => ⟨S200000x64, .f32⟩
  | .hbm, ⟨2, _⟩ => ⟨S2000000, .i32⟩
  | .hbm, ⟨3, _⟩ => ⟨S2000000, .i32⟩
  | .hbm, ⟨4, _⟩ => ⟨S2000000, .i32⟩
  | .hbm, ⟨5, _⟩ => ⟨S2000000, .i32⟩
  | .hbm, ⟨6, _⟩ => ⟨S2000000, .i32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S1x64, .f32⟩
  | .hbm, ⟨16, _⟩ => ⟨S200000x64, .f32⟩
  | .hbm, ⟨17, _⟩ => ⟨S200000x64, .f32⟩
  | .hbm, ⟨18, _⟩ => ⟨S200000x64, .f32⟩
  | .hbm, ⟨19, _⟩ => ⟨S_, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S2000000, .i32⟩
  | .hbm, ⟨26, _⟩ => ⟨S2000000x1, .i32⟩
  | .hbm, ⟨27, _⟩ => ⟨S2000000x64, .f32⟩
  | .hbm, ⟨28, _⟩ => ⟨S_, .f32⟩
  | .hbm, ⟨29, _⟩ => ⟨S500000x64, .f32⟩
  | .hbm, ⟨30, _⟩ => ⟨S2000000x1, .i32⟩
  | .hbm, ⟨31, _⟩ => ⟨S500000x64, .f32⟩
  | .hbm, ⟨32, _⟩ => ⟨S1x64, .f32⟩
  | .hbm, ⟨33, _⟩ => ⟨S500000x64, .f32⟩
  | .hbm, ⟨34, _⟩ => ⟨S500000x64, .f32⟩
  | .hbm, ⟨35, _⟩ => ⟨S_, .i32⟩
  | .hbm, ⟨36, _⟩ => ⟨S2000000, .i32⟩
  | .hbm, ⟨37, _⟩ => ⟨S2000000, .i1⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S2000000, .i32⟩
  | .hbm, ⟨42, _⟩ => ⟨S2000000x1, .i32⟩
  | .hbm, ⟨43, _⟩ => ⟨S2000000x64, .f32⟩
  | .hbm, ⟨44, _⟩ => ⟨S_, .i32⟩
  | .hbm, ⟨45, _⟩ => ⟨S2000000, .i32⟩
  | .hbm, ⟨46, _⟩ => ⟨S2000000, .i1⟩
  | .hbm, ⟨47, _⟩ => ⟨S_, .i32⟩
  | .hbm, ⟨48, _⟩ => ⟨S2000000, .i32⟩
  | .hbm, ⟨49, _⟩ => ⟨S2000000, .i32⟩
  | .hbm, ⟨50, _⟩ => ⟨S2000000, .i32⟩
  | .hbm, ⟨51, _⟩ => ⟨S2000000x1, .i32⟩
  | .hbm, ⟨52, _⟩ => ⟨S2000000x64, .f32⟩
  | .hbm, ⟨53, _⟩ => ⟨S2000000x64, .f32⟩
  | .hbm, ⟨54, _⟩ => ⟨S_, .f32⟩
  | .hbm, ⟨55, _⟩ => ⟨S200000x64, .f32⟩
  | .hbm, ⟨56, _⟩ => ⟨S2000000x1, .i32⟩
  | .hbm, ⟨57, _⟩ => ⟨S200000x64, .f32⟩
  | .hbm, ⟨58, _⟩ => ⟨S1x64, .f32⟩
  | .hbm, ⟨59, _⟩ => ⟨S200000x64, .f32⟩
  | .local _ .vmem, ⟨0, _⟩ => ⟨S4000x64, .f32⟩
  | .local _ .vmem, ⟨1, _⟩ => ⟨S4000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S64x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S64x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | .local _ .vmem, ⟨18, _⟩ => ⟨S64x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S8000x64, .f32⟩
  | .local _ .vmem, ⟨24, _⟩ => ⟨S8000x64, .f32⟩
  | .local _ .vmem, ⟨25, _⟩ => ⟨S8000x64, .f32⟩
  | .local _ .vmem, ⟨26, _⟩ => ⟨S8000x64, .f32⟩
  | .local _ .vmem, ⟨27, _⟩ => ⟨S8000x64, .f32⟩
  | .local _ .vmem, ⟨28, _⟩ => ⟨S8000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S1x64, .f32⟩
  | .local _ .vmem, ⟨34, _⟩ => ⟨S4000x64, .f32⟩
  | .local _ .vmem, ⟨35, _⟩ => ⟨S4000x64, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13_0 : Ref sig .tc := ⟨.hbm, 33, rfl⟩
abbrev main_v13_1 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S500000x64 : S_.BroadcastsInDim S500000x64 (![] : Fin 0 → Fin S500000x64.rank)
  shapeCasts_S4000x64_S4000x64 : S4000x64.ShapeCasts S4000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S200000x64 : S_.BroadcastsInDim S200000x64 (![] : Fin 0 → Fin S200000x64.rank)
  dot_S4000x64_S64x64_S4000x64_1_0_0_1_n_n_wf : DotDims.WF S4000x64 S64x64 S4000x64 [1] [0] [0] [1] [] []
  gather_S200000x64_S2000000x1_S2000000x64_1_0_n_n_0_1_164_wf : GatherDims.WF S200000x64 S2000000x1 S2000000x64 [1] [0] [] [0] [] 1 ![1, 64]
  scatter_S500000x64_S2000000x1_S2000000x64_1_0_0_1_wf : ScatterDims.WF S500000x64 S2000000x1 S2000000x64 [1] [0] [0] 1
  gather_S500000x64_S2000000x1_S2000000x64_1_0_n_n_0_1_164_wf : GatherDims.WF S500000x64 S2000000x1 S2000000x64 [1] [0] [] [0] [] 1 ![1, 64]
  scatter_S200000x64_S2000000x1_S2000000x64_1_0_0_1_wf : ScatterDims.WF S200000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S200000x64.size a
  hwx0_5 : ∀ i : grid0.Coords, EltTy.bits .f32 = 32 ∨ (Rect.block (s := S200000x64) S4000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S200000x64.size a
  hwx0_6 : ∀ i : grid0.Coords, EltTy.bits .f32 = 32 ∨ (Rect.block (s := S200000x64) S4000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S200000x64.size a
  hwx0_7 : ∀ i : grid0.Coords, EltTy.bits .f32 = 32 ∨ (Rect.block (s := S200000x64) S4000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S500000x64.size a
  hwx1_0 : ∀ i : grid1.Coords, EltTy.bits .f32 = 32 ∨ (Rect.block (s := S500000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S500000x64.size a
  hwx1_3 : ∀ i : grid1.Coords, EltTy.bits .f32 = 32 ∨ (Rect.block (s := S500000x64) S4000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S500000x64.size a
  hwx1_5 : ∀ i : grid1.Coords, EltTy.bits .f32 = 32 ∨ (Rect.block (s := S500000x64) S4000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S500000x64.size a
  hwx1_6 : ∀ i : grid1.Coords, EltTy.bits .f32 = 32 ∨ (Rect.block (s := S500000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S2000000x64.size a
  hwx2_0 : ∀ i : grid2.Coords, EltTy.bits .f32 = 32 ∨ (Rect.block (s := S2000000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S2000000x64.size a
  hwx2_1 : ∀ i : grid2.Coords, EltTy.bits .f32 = 32 ∨ (Rect.block (s := S2000000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S2000000x64.size a
  hwx2_2 : ∀ i : grid2.Coords, EltTy.bits .f32 = 32 ∨ (Rect.block (s := S2000000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S200000x64.size a
  hwx3_0 : ∀ i : grid3.Coords, EltTy.bits .f32 = 32 ∨ (Rect.block (s := S200000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S200000x64.size a
  hwx3_1 : ∀ i : grid3.Coords, EltTy.bits .f32 = 32 ∨ (Rect.block (s := S200000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S200000x64.size a
  hwx3_3 : ∀ i : grid3.Coords, EltTy.bits .f32 = 32 ∨ (Rect.block (s := S200000x64) S4000x64.size (cc3_transform_3 i) (hinb3_3 i)).WholeWords (EltTy.packing .f32)

variable [Facts₀]

def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf

abbrev win0_0 : Pipeline.Window sig grid0 :=
  Pipeline.Window.ofSpec (Memref.whole main_arg1) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S4000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S4000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S4000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13_0) S4000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v13_1) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1_2) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S4000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S500000x64 : Shape := ⟨2, ![500000, 64]⟩
abbrev S200000x64 : Shape := ⟨2, ![200000, 64]⟩
abbrev S2000000 : Shape := ⟨1, ![2000000]⟩
abbrev S64x64 : Shape := ⟨2, ![64, 64]⟩
abbrev S64 : Shape := ⟨1, ![64]⟩
abbrev S1x64 : Shape := ⟨2, ![1, 64]⟩
abbrev S_ : Shape := ⟨0, ![]⟩
abbrev S2000000x1 : Shape := ⟨2, ![2000000, 1]⟩
abbrev S2000000x64 : Shape := ⟨2, ![2000000, 64]⟩

abbrev nBuf : Space → Nat
  | .hbm => 85
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S200000x64, .f32⟩
  | .hbm, ⟨2, _⟩ => ⟨S2000000, .i32⟩
  | .hbm, ⟨3, _⟩ => ⟨S2000000, .i32⟩
  | .hbm, ⟨4, _⟩ => ⟨S2000000, .i32⟩
  | .hbm, ⟨5, _⟩ => ⟨S2000000, .i32⟩
  | .hbm, ⟨6, _⟩ => ⟨S2000000, .i32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S200000x64, .f32⟩
  | .hbm, ⟨16, _⟩ => ⟨S1x64, .f32⟩
  | .hbm, ⟨17, _⟩ => ⟨S200000x64, .f32⟩
  | .hbm, ⟨18, _⟩ => ⟨S200000x64, .f32⟩
  | .hbm, ⟨19, _⟩ => ⟨S200000x64, .f32⟩
  | .hbm, ⟨20, _⟩ => ⟨S200000x64, .f32⟩
  | .hbm, ⟨21, _⟩ => ⟨S_, .f32⟩
  | .hbm, ⟨22, _⟩ => ⟨S200000x64, .f32⟩
  | .hbm, ⟨23, _⟩ => ⟨S200000x64, .f32⟩
  | .hbm, ⟨24, _⟩ => ⟨S_, .f32⟩
  | .hbm, ⟨25, _⟩ => ⟨S200000x64, .f32⟩
  | .hbm, ⟨26, _⟩ => ⟨S200000x64, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000x64, .f32⟩
  | .hbm, ⟨36, _⟩ => ⟨S_, .f32⟩
  | .hbm, ⟨37, _⟩ => ⟨S500000x64, .f32⟩
  | .hbm, ⟨38, _⟩ => ⟨S2000000x1, .i32⟩
  | .hbm, ⟨39, _⟩ => ⟨S500000x64, .f32⟩
  | .hbm, ⟨40, _⟩ => ⟨S500000x64, .f32⟩
  | .hbm, ⟨41, _⟩ => ⟨S1x64, .f32⟩
  | .hbm, ⟨42, _⟩ => ⟨S500000x64, .f32⟩
  | .hbm, ⟨43, _⟩ => ⟨S500000x64, .f32⟩
  | .hbm, ⟨44, _⟩ => ⟨S500000x64, .f32⟩
  | .hbm, ⟨45, _⟩ => ⟨S500000x64, .f32⟩
  | .hbm, ⟨46, _⟩ => ⟨S_, .i32⟩
  | .hbm, ⟨47, _⟩ => ⟨S2000000, .i32⟩
  | .hbm, ⟨48, _⟩ => ⟨S2000000, .i1⟩
  | .hbm, ⟨49, _⟩ => ⟨S_, .i32⟩
  | .hbm, ⟨50, _⟩ => ⟨S2000000, .i32⟩
  | .hbm, ⟨51, _⟩ => ⟨S2000000, .i32⟩
  | .hbm, ⟨52, _⟩ => ⟨S2000000, .i32⟩
  | .hbm, ⟨53, _⟩ => ⟨S2000000x1, .i32⟩
  | .hbm, ⟨54, _⟩ => ⟨S2000000x64, .f32⟩
  | .hbm, ⟨55, _⟩ => ⟨S2000000x64, .f32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000x64, .f32⟩
  | .hbm, ⟨65, _⟩ => ⟨S2000000x64, .f32⟩
  | .hbm, ⟨66, _⟩ => ⟨S2000000x64, .f32⟩
  | .hbm, ⟨67, _⟩ => ⟨S2000000x64, .f32⟩
  | .hbm, ⟨68, _⟩ => ⟨S_, .f32⟩
  | .hbm, ⟨69, _⟩ => ⟨S2000000x64, .f32⟩
  | .hbm, ⟨70, _⟩ => ⟨S2000000x64, .f32⟩
  | .hbm, ⟨71, _⟩ => ⟨S_, .f32⟩
  | .hbm, ⟨72, _⟩ => ⟨S2000000x64, .f32⟩
  | .hbm, ⟨73, _⟩ => ⟨S2000000x64, .f32⟩
  | .hbm, ⟨74, _⟩ => ⟨S2000000x64, .f32⟩
  | .hbm, ⟨75, _⟩ => ⟨S_, .f32⟩
  | .hbm, ⟨76, _⟩ => ⟨S200000x64, .f32⟩
  | .hbm, ⟨77, _⟩ => ⟨S2000000x1, .i32⟩
  | .hbm, ⟨78, _⟩ => ⟨S200000x64, .f32⟩
  | .hbm, ⟨79, _⟩ => ⟨S200000x64, .f32⟩
  | .hbm, ⟨80, _⟩ => ⟨S200000x64, .f32⟩
  | .hbm, ⟨81, _⟩ => ⟨S1x64, .f32⟩
  | .hbm, ⟨82, _⟩ => ⟨S200000x64, .f32⟩
  | .hbm, ⟨83, _⟩ => ⟨S200000x64, .f32⟩
  | .hbm, ⟨84, _⟩ => ⟨S200000x64, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S500000x64 : S_.BroadcastsInDim S500000x64 (![] : Fin 0 → Fin S500000x64.rank)
  bcast_S1x64_S500000x64_0_1 : S1x64.BroadcastsInDim S500000x64 (![0, 1] : Fin 2 → Fin S500000x64.rank)
  bcast_S_S2000000x64 : S_.BroadcastsInDim S2000000x64 (![] : Fin 0 → Fin S2000000x64.rank)
  dot_S200000x64_S64x64_S200000x64_1_0_0_1_n_n_wf : DotDims.WF S200000x64 S64x64 S200000x64 [1] [0] [0] [1] [] []
  gather_S200000x64_S2000000x1_S2000000x64_1_0_n_n_0_1_164_wf : GatherDims.WF S200000x64 S2000000x1 S2000000x64 [1] [0] [] [0] [] 1 ![1, 64]
  scatter_S500000x64_S2000000x1_S2000000x64_1_0_0_1_wf : ScatterDims.WF S500000x64 S2000000x1 S2000000x64 [1] [0] [0] 1
  dot_S500000x64_S64x64_S500000x64_1_0_0_1_n_n_wf : DotDims.WF S500000x64 S64x64 S500000x64 [1] [0] [0] [1] [] []
  dot_S2000000x64_S64x64_S2000000x64_1_0_0_1_n_n_wf : DotDims.WF S2000000x64 S64x64 S2000000x64 [1] [0] [0] [1] [] []
  gather_S500000x64_S2000000x1_S2000000x64_1_0_n_n_0_1_164_wf : GatherDims.WF S500000x64 S2000000x1 S2000000x64 [1] [0] [] [0] [] 1 ![1, 64]
  scatter_S200000x64_S2000000x1_S2000000x64_1_0_0_1_wf : ScatterDims.WF S200000x64 S2000000x1 S2000000x64 [1] [0] [0] 1

variable [Facts₀]

def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S2000000x1_S2000000x64_1_0_n_n_0_1_164 : GatherDims S200000x64 S2000000x1 S2000000x64 where
  offsetDims := [1]
  collapsedSliceDims := [0]
  operandBatchingDims := []
  startIndicesBatchingDims := []
  startIndexMap := [0]
  indexVectorDim := 1
  sliceSizes := ![1, 64]
  wf := gather_S200000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S200000x64_S2000000x1_S2000000x64_1_0_0_1 : ScatterDims S200000x64 S2000000x1 S2000000x64 where
  updateWindowDims := [1]
  insertedWindowDims := [0]
  scatterDimsToOperandDims := [0]
  indexVectorDim := 1
  wf := scatter_S200000x64_S2000000x1_S2000000x64_1_0_0_1_wf

class Facts : Prop extends Facts₀ where

variable [Facts]
-- ==== Proof.FoldA.lean ====
/-
  The kernel program's buffers at each boundary between host operations and kernel regions, walked back to the
  launch memory. Between the four regions the host takes rows (a gather at start indices wrapped into range when
  negative) and sums rows into segments (an accumulating scatter into zeros); here each region's input arrays are
  written as those host functions of the launch arrays and of the earlier regions' result arrays, and the program's two
  results are the result arrays of the second and the fourth region.
-/
import proofs.«158519_j20126216749524_1_alg».proof.Proof.Gen.KernelIdeal.Frame
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable {F : FTy → Type} [FloatOps F]

/-! ## The host functions between the regions -/

/-- A vector of 64 entries as a one-row matrix. -/
def asRow (b : (⟨S64, .f32⟩ : BufTy).Contents (Elt F)) : (⟨S1x64, .f32⟩ : BufTy).Contents (Elt F) :=
  fun i => shapeCast S1x64 b shapeCasts_S64_S1x64 i

/-- A vector of start indices as a one-column matrix. -/
def col (a : (⟨S2000000, .i32⟩ : BufTy).Contents (Elt F)) : (⟨S2000000x1, .i32⟩ : BufTy).Contents (Elt F) :=
  broadcastInDim S2000000x1 ![0] bcast_S2000000_S2000000x1_0 a

/-- Start indices with the negative ones shifted up by the row count n. -/
def wrap (n : BitVec 32) (a : (⟨S2000000, .i32⟩ : BufTy).Contents (Elt F)) : (⟨S2000000, .i32⟩ : BufTy).Contents (Elt F) :=
  select (cmpi .slt a (broadcastInDim S2000000 ![] bcast_S_S2000000 (constantI S_ 32 0#32)))
    (addi a (broadcastInDim S2000000 ![] bcast_S_S2000000 (constantI S_ 32 n))) a

/-- Rows of a 200000-row matrix taken at a column of start indices. -/
def rows200 (x : (⟨S200000x64, .f32⟩ : BufTy).Contents (Elt F)) (i : (⟨S2000000x1, .i32⟩ : BufTy).Contents (Elt F)) :
    (⟨S2000000x64, .f32⟩ : BufTy).Contents (Elt F) :=
  Host.gather gather_S200000x64_S2000000x1_S2000000x64_1_0_n_n_0_1_164 x i

/-- Rows of a 500000-row matrix taken at a column of start indices. -/
def rows500 (x : (⟨S500000x64, .f32⟩ : BufTy).Contents (Elt F)) (i : (⟨S2000000x1, .i32⟩ : BufTy).Contents (Elt F)) :
    (⟨S2000000x64, .f32⟩ : BufTy).Contents (Elt F) :=
  Host.gather gather_S500000x64_S2000000x1_S2000000x64_1_0_n_n_0_1_164 x i

/-- Rows summed into 500000 segments, from zeros. -/
def sum500 (i : (⟨S2000000x1, .i32⟩ : BufTy).Contents (Elt F)) (u : (⟨S2000000x64, .f32⟩ : BufTy).Contents (Elt F)) :
    (⟨S500000x64, .f32⟩ : BufTy).Contents (Elt F) :=
  Host.scatterAdd scatter_S500000x64_S2000000x1_S2000000x64_1_0_0_1
    (broadcastInDim S500000x64 ![] bcast_S_S500000x64 (constant S_ .f32 0x00000000#32)) i u

/-- Rows summed into 200000 segments, from zeros. -/
def sum200 (i : (⟨S2000000x1, .i32⟩ : BufTy).Contents (Elt F)) (u : (⟨S2000000x64, .f32⟩ : BufTy).Contents (Elt F)) :
    (⟨S200000x64, .f32⟩ : BufTy).Contents (Elt F) :=
  Host.scatterAdd scatter_S200000x64_S2000000x1_S2000000x64_1_0_0_1
    (broadcastInDim S200000x64 ![] bcast_S_S200000x64 (constant S_ .f32 0x00000000#32)) i u

variable (m : (ℓ : Loc nD τ sig) → Buf (Elt F) ℓ) (ρ : Dev nD → PrngReg) (c : Dev nD)

/-! ## The first region's entry -/

theorem V1_arg1 : V1 m ρ c main_arg1 = m ((c : Thread nD τ).loc main_arg1) := by
  show StableHlo.after hostOps0 (W0 m ρ c) (Proc.devRef .tc main_arg1) = _
  after_results; try rfl
theorem V1_arg7 : V1 m ρ c main_arg7 = m ((c : Thread nD τ).loc main_arg7) := by
  show StableHlo.after hostOps0 (W0 m ρ c) (Proc.devRef .tc main_arg7) = _
  after_results; try rfl
theorem V1_arg11 : V1 m ρ c main_arg11 = m ((c : Thread nD τ).loc main_arg11) := by
  show StableHlo.after hostOps0 (W0 m ρ c) (Proc.devRef .tc main_arg11) = _
  after_results; try rfl
theorem V1_arg13 : V1 m ρ c main_arg13 = m ((c : Thread nD τ).loc main_arg13) := by
  show StableHlo.after hostOps0 (W0 m ρ c) (Proc.devRef .tc main_arg13) = _
  after_results; try rfl
theorem V1_v0 : V1 m ρ c main_v0 = asRow (m ((c : Thread nD τ).loc main_arg8)) := by
  show StableHlo.after hostOps0 (W0 m ρ c) (Proc.devRef .tc main_v0) = _
  after_results; rfl

/-! ## Launch arrays and earlier results read at the later boundaries -/

theorem W2_arg0 : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results; try rfl)
theorem W2_arg2 : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results; try rfl)
theorem W2_arg3 : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results; try rfl)
theorem W2_arg4 : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results; try rfl)
theorem W2_arg5 : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results; try rfl)
theorem W2_arg6 : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results; try rfl)
theorem W2_arg9 : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results; try rfl)
theorem W2_arg10 : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results; try rfl)
theorem W2_arg12 : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results; try rfl)
theorem W2_arg14 : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results; try rfl)
theorem W4_arg4 : W4 m ρ c (Proc.devRef .tc main_arg4) = m ((c : Thread nD τ).loc main_arg4) :=
  (W4_of_ne m ρ c main_arg4 (by decide)).trans (by
    show StableHlo.after hostOps1 (W2 m ρ c) (Proc.devRef .tc main_arg4) = _
    after_results; exact W2_arg4 m ρ c)
theorem W4_arg5 : W4 m ρ c (Proc.devRef .tc main_arg5) = m ((c : Thread nD τ).loc main_arg5) :=
  (W4_of_ne m ρ c main_arg5 (by decide)).trans (by
    show StableHlo.after hostOps1 (W2 m ρ c) (Proc.devRef .tc main_arg5) = _
    after_results; exact W2_arg5 m ρ c)
theorem W4_arg6 : W4 m ρ c (Proc.devRef .tc main_arg6) = m ((c : Thread nD τ).loc main_arg6) :=
  (W4_of_ne m ρ c main_arg6 (by decide)).trans (by
    show StableHlo.after hostOps1 (W2 m ρ c) (Proc.devRef .tc main_arg6) = _
    after_results; exact W2_arg6 m ρ c)
theorem W4_arg14 : W4 m ρ c (Proc.devRef .tc main_arg14) = m ((c : Thread nD τ).loc main_arg14) :=
  (W4_of_ne m ρ c main_arg14 (by decide)).trans (by
    show StableHlo.after hostOps1 (W2 m ρ c) (Proc.devRef .tc main_arg14) = _
    after_results; exact W2_arg14 m ρ c)
theorem W6_arg4 : W6 m ρ c (Proc.devRef .tc main_arg4) = m ((c : Thread nD τ).loc main_arg4) :=
  (W6_of_ne m ρ c main_arg4 (by decide)).trans (by
    show StableHlo.after hostOps2 (W4 m ρ c) (Proc.devRef .tc main_arg4) = _
    after_results; exact W4_arg4 m ρ c)
theorem W6_arg14 : W6 m ρ c (Proc.devRef .tc main_arg14) = m ((c : Thread nD τ).loc main_arg14) :=
  (W6_of_ne m ρ c main_arg14 (by decide)).trans (by
    show StableHlo.after hostOps2 (W4 m ρ c) (Proc.devRef .tc main_arg14) = _
    after_results; exact W4_arg14 m ρ c)

/-- The first result of the first region, at that region's exit. -/
theorem W2_v1_0 : W2 m ρ c (Proc.devRef .tc main_v1_0) = (dat0 (V1 m ρ) c).arrAt 5 cfg0.N := W2_arr m ρ c 5
/-- The second result of the second region, at that region's exit. -/
theorem W4_v13_1 : W4 m ρ c (Proc.devRef .tc main_v13_1) = (dat1 (V3 m ρ) c).arrAt 6 cfg1.N := W4_arr m ρ c 6
/-- The third region's result, at that region's exit. -/
theorem W6_v28 : W6 m ρ c (Proc.devRef .tc main_v28) = (dat2 (V5 m ρ) c).arrAt 2 cfg2.N := W6_arr m ρ c 2
/-- The second result of the first region, as the third region's host stretch finds it. -/
theorem W4_v1_1 : W4 m ρ c (Proc.devRef .tc main_v1_1) = (dat0 (V1 m ρ) c).arrAt 6 cfg0.N :=
  (W4_of_ne m ρ c main_v1_1 (by decide)).trans (by
    show StableHlo.after hostOps1 (W2 m ρ c) (Proc.devRef .tc main_v1_1) = _
    after_results; exact W2_arr m ρ c 6)

/-- The third result of the first region, as the last host stretch finds it. -/
theorem W6_v1_2 : W6 m ρ c (Proc.devRef .tc main_v1_2) = (dat0 (V1 m ρ) c).arrAt 7 cfg0.N :=
  (W6_of_ne m ρ c main_v1_2 (by decide)).trans (by
    show StableHlo.after hostOps2 (W4 m ρ c) (Proc.devRef .tc main_v1_2) = _
    after_results
    refine (W4_of_ne m ρ c main_v1_2 (by decide)).trans ?_
    show StableHlo.after hostOps1 (W2 m ρ c) (Proc.devRef .tc main_v1_2) = _
    after_results; exact W2_arr m ρ c 7)

/-! ## The second region's entry -/

theorem V3_arg0 : V3 m ρ c main_arg0 = m ((c : Thread nD τ).loc main_arg0) := by
  show StableHlo.after hostOps1 (W2 m ρ c) (Proc.devRef .tc main_arg0) = _
  after_results; exact W2_arg0 m ρ c
theorem V3_arg9 : V3 m ρ c main_arg9 = m ((c : Thread nD τ).loc main_arg9) := by
  show StableHlo.after hostOps1 (W2 m ρ c) (Proc.devRef .tc main_arg9) = _
  after_results; exact W2_arg9 m ρ c
theorem V3_arg12 : V3 m ρ c main_arg12 = m ((c : Thread nD τ).loc main_arg12) := by
  show StableHlo.after hostOps1 (W2 m ρ c) (Proc.devRef .tc main_arg12) = _
  after_results; exact W2_arg12 m ρ c
theorem V3_v12 : V3 m ρ c main_v12 = asRow (m ((c : Thread nD τ).loc main_arg10)) := by
  show StableHlo.after hostOps1 (W2 m ρ c) (Proc.devRef .tc main_v12) = _
  after_results; rw [W2_arg10]; rfl
/-- The node weights: the first region's first result, its rows taken at the incidence's hyperedge indices and summed
    into the incidence's node segments. -/
theorem V3_v11 : V3 m ρ c main_v11
    = sum500 (col (m ((c : Thread nD τ).loc main_arg2))) (rows200 ((dat0 (V1 m ρ) c).arrAt 5 cfg0.N) (col (wrap 200000#32 (m ((c : Thread nD τ).loc main_arg3))))) := by
  show StableHlo.after hostOps1 (W2 m ρ c) (Proc.devRef .tc main_v11) = _
  after_results_simp; rw [W2_arg2, W2_arg3, W2_v1_0]; rfl

/-! ## The third region's entry -/

theorem V5_v20 : V5 m ρ c main_v20
    = rows200 ((dat0 (V1 m ρ) c).arrAt 6 cfg0.N) (col (wrap 200000#32 (m ((c : Thread nD τ).loc main_arg5)))) := by
  show StableHlo.after hostOps2 (W4 m ρ c) (Proc.devRef .tc main_v20) = _
  after_results; rw [W4_arg5, W4_v1_1]; rfl
theorem V5_v27 : V5 m ρ c main_v27
    = rows500 ((dat1 (V3 m ρ) c).arrAt 6 cfg1.N) (col (wrap 500000#32 (m ((c : Thread nD τ).loc main_arg6)))) := by
  show StableHlo.after hostOps2 (W4 m ρ c) (Proc.devRef .tc main_v27) = _
  after_results_simp; rw [W4_arg6, W4_v13_1]; rfl

/-! ## The fourth region's entry -/

theorem V7_v1_2 : V7 m ρ c main_v1_2 = (dat0 (V1 m ρ) c).arrAt 7 cfg0.N := by
  show StableHlo.after hostOps3 (W6 m ρ c) (Proc.devRef .tc main_v1_2) = _
  after_results; exact W6_v1_2 m ρ c
theorem V7_v31 : V7 m ρ c main_v31 = sum200 (col (m ((c : Thread nD τ).loc main_arg4))) ((dat2 (V5 m ρ) c).arrAt 2 cfg2.N) := by
  show StableHlo.after hostOps3 (W6 m ρ c) (Proc.devRef .tc main_v31) = _
  after_results; rw [W6_arg4, W6_v28]; rfl
theorem V7_v32 : V7 m ρ c main_v32 = asRow (m ((c : Thread nD τ).loc main_arg14)) := by
  show StableHlo.after hostOps3 (W6 m ρ c) (Proc.devRef .tc main_v32) = _
  after_results; rw [W6_arg14]; rfl

/-! ## The program's two results -/

/-- The first result is the second region's first result array: no later host operation or region writes it. -/
theorem W8_v13_0 : W8 m ρ c (Proc.devRef .tc main_v13_0) = (dat1 (V3 m ρ) c).arrAt 5 cfg1.N :=
  (W8_of_ne m ρ c main_v13_0 (by decide)).trans (by
    show StableHlo.after hostOps3 (W6 m ρ c) (Proc.devRef .tc main_v13_0) = _
    after_results
    refine (W6_of_ne m ρ c main_v13_0 (by decide)).trans ?_
    show StableHlo.after hostOps2 (W4 m ρ c) (Proc.devRef .tc main_v13_0) = _
    after_results; exact W4_arr m ρ c 5)

/-- The second result is the fourth region's result array. -/
theorem W8_v33 : W8 m ρ c (Proc.devRef .tc main_v33) = (dat3 (V7 m ρ) c).arrAt 3 cfg3.N := W8_arr m ρ c 3

end Cert.KernelIdeal.Fold

end
-- ==== Proof.Spec.lean ====
/-
  The hypergraph layer's arithmetic, entry by entry, over the extended reals.

  Every array here is a matrix with 64 columns; the number of rows is a parameter. `mm X W` is the matrix
  product X·W. `gate X W b` is the logistic function of the affine map X·W + b, with b a one-row matrix added
  to every row. `upd X W b G` is tanh of the affine map X·W + b weighted entry by entry by G. `msg A B` is A
  weighted entry by entry by the logistic function of B. `fin S A b` is tanh of S + A + b.
-/
import Idealize.ShloMosaic.PureOps.Ideal
import Idealize.ShloMosaic.Lib.ValueIdx

open scoped BigOperators

noncomputable section

namespace Cert.Layer

open Idealize.ShloMosaic Idealize.ShloMosaic.ValueIdx

/-- An extended-real matrix with R rows and C columns. -/
abbrev Mat (R C : ℕ) := (⟨2, ![R, C]⟩ : Shape).Idx → EReal

variable {R : ℕ}

/-- The matrix product X·W: entry (p, q) is the sum over k of X(p, k) · W(k, q). -/
def mm (X : Mat R 64) (W : Mat 64 64) : Mat R 64 :=
  fun i => ∑ k : Fin 64, X (ix2 (i 0) k) * W (ix2 k (i 1))

/-- The logistic function of X·W + b, the one-row matrix b added to every row. -/
def gate (X : Mat R 64) (W : Mat 64 64) (b : Mat 1 64) : Mat R 64 :=
  fun i => Ideal.logistic (mm X W i + b (ix2 (0 : Fin 1) (i 1)))

/-- tanh of (X·W + b) weighted entry by entry by G. -/
def upd (X : Mat R 64) (W : Mat 64 64) (b : Mat 1 64) (G : Mat R 64) : Mat R 64 :=
  fun i => Ideal.tanh ((mm X W i + b (ix2 (0 : Fin 1) (i 1))) * G i)

/-- A weighted entry by entry by the logistic function of B. -/
def msg (A B : Mat R 64) : Mat R 64 :=
  fun i => A i * Ideal.logistic (B i)

/-- tanh of S + A + b, the one-row matrix b added to every row. -/
def fin (S A : Mat R 64) (b : Mat 1 64) : Mat R 64 :=
  fun i => Ideal.tanh (S i + A i + b (ix2 (0 : Fin 1) (i 1)))

theorem mm_apply (X : Mat R 64) (W : Mat 64 64) (p : Fin R) (q : Fin 64) :
    mm X W (ix2 p q) = ∑ k : Fin 64, X (ix2 p k) * W (ix2 k q) := rfl

end Cert.Layer

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.Region0.lean ====
/-
  The first kernel region, read as whole arrays. Each grid point t loads rows 4000·t … 4000·t + 3999 of the
  hyperedge features X and the three whole 64 × 64 weight matrices, and writes the same rows of three results: the
  logistic function of X·Wg + bg, the product X·Wh, and the product X·Ws. The 50 row blocks tile the 200000 rows, so
  after the region each result array is that function of the whole input arrays.
-/
import proofs.«158519_j20126216749524_1_alg».proof.Proof.Gen.KernelIdeal.Frame
import proofs.«158519_j20126216749524_1_alg».proof.Proof.Spec
import proofs.«158519_j20126216749524_1_alg».proof.Proof.LibPlainDot
import proofs.«158519_j20126216749524_1_alg».proof.Proof.LibRowSpread
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

open scoped BigOperators

/-! ## The body's three results at an entry of a block -/

theorem zero_offsets : (![0, 0] : Fin 2 → Nat) = fun _ => 0 := funext fun a => by fin_cases a <;> rfl

/-- The kernel's matrix products contract the left operand's columns with the right operand's rows. -/
theorem plain_dot : PlainDot.IsPlain dot_S4000x64_S64x64_S4000x64_1_0_0_1_n_n := ⟨rfl, rfl, rfl, rfl, rfl, rfl⟩

/-- Entry (p, q) of the gate block: the logistic function of row p of the block times column q of the weights, plus
    entry q of the bias row. -/
theorem gate_block_apply (x0 : Vec Ideal S4000x64 .f32) (x1 : Vec Ideal S64x64 .f32) (x2 : Vec Ideal S1x64 .f32)
    (p : Fin 4000) (q : Fin 64) :
    k0_pay2 x0 x1 x2 (ix2 p q)
      = Ideal.logistic ((∑ k : Fin 64, x0 (ix2 p k) * x1 (ix2 k q)) + x2 (ix2 (0 : Fin 1) q)) := by
  unfold k0_pay2 k0_pay1
  show Ideal.logistic (_ + _) = _
  rw [shapeCast_self, Cert.Lib.RowSpread.spreadRows_apply]
  exact congrArg (fun z => Ideal.logistic (z + x2 (ix2 (0 : Fin 1) q)))
    (PlainDot.matmul_zero_apply plain_dot none _ _ p q)

/-- Entry (p, q) of the second result's block: row p of the block times column q of the weights. -/
theorem prod_h_block_apply (x0 : Vec Ideal S4000x64 .f32) (x3 : Vec Ideal S64x64 .f32) (p : Fin 4000) (q : Fin 64) :
    k0_pay3 x0 x3 (ix2 p q) = ∑ k : Fin 64, x0 (ix2 p k) * x3 (ix2 k q) := by
  unfold k0_pay3 k0_pay1
  exact PlainDot.matmul_zero_apply plain_dot none _ _ p q

/-- Entry (p, q) of the third result's block: row p of the block times column q of the weights. -/
theorem prod_s_block_apply (x0 : Vec Ideal S4000x64 .f32) (x4 : Vec Ideal S64x64 .f32) (p : Fin 4000) (q : Fin 64) :
    k0_pay4 x0 x4 (ix2 p q) = ∑ k : Fin 64, x0 (ix2 p k) * x4 (ix2 k q) := by
  unfold k0_pay4 k0_pay1
  exact PlainDot.matmul_zero_apply plain_dot none _ _ p q

/-! ## Where each block sits in its array -/

/-- At grid point t the blocks of X and of the three results are row block t, and the blocks of the weight matrices
    and of the bias row are the whole arrays. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 50 := t.isLt

/-- Row p of row block t is row 4000·t + p of the whole array. -/
def rowOf (t : Fin cfg0.N) (p : Fin 4000) : Fin 200000 :=
  ⟨t.val * 4000 + p.val, by have := point_lt t; have := p.isLt; omega⟩

/-- Entry (p, q) of X's block at point t is entry (4000·t + p, q) of X. -/
theorem x_block_emb (t : Fin cfg0.N) (p : Fin 4000) (q : Fin 64) :
    ((cfg0.win 0).blk t).view.emb (ix2 p q) = ix2 (rowOf t p) q := by
  funext a; apply Fin.ext
  obtain ⟨e0, e1, -⟩ := block_index t
  match a with
  | ⟨0, _⟩ => show win0_0.index t (0 : Fin 2) * 4000 + 1 * p.val = t.val * 4000 + p.val; rw [e0]; omega
  | ⟨1, _⟩ => show win0_0.index t (1 : Fin 2) * 64 + 1 * q.val = q.val; rw [e1]; omega

theorem x_block_apply (c : Dev nD) (t : Fin cfg0.N) (p : Fin 4000) (q : Fin 64) :
    iblk0 V c 0 t (ix2 p q) = V c main_arg1 (ix2 (rowOf t p) q) := by
  show V c main_arg1 (((cfg0.win 0).blk t).view.emb (ix2 p q)) = _
  rw [x_block_emb]

/-- The gate weights' block is the whole matrix. -/
theorem wg_block (c : Dev nD) (t : Fin cfg0.N) : iblk0 V c 1 t = V c main_arg7 := by
  funext y
  show V c main_arg7 (((cfg0.win 1).blk t).view.emb y) = V c main_arg7 y
  refine congrArg _ (funext fun a => Fin.ext ?_)
  obtain ⟨-, -, e0, e1, -⟩ := block_index t
  match a with
  | ⟨0, _⟩ => show win0_1.index t (0 : Fin 2) * 64 + 1 * (y 0).val = (y 0).val; rw [e0]; omega
  | ⟨1, _⟩ => show win0_1.index t (1 : Fin 2) * 64 + 1 * (y 1).val = (y 1).val; rw [e1]; omega

/-- The bias row's block is the whole row. -/
theorem bias_block (c : Dev nD) (t : Fin cfg0.N) : iblk0 V c 2 t = V c main_v0 := by
  funext y
  show V c main_v0 (((cfg0.win 2).blk t).view.emb y) = V c main_v0 y
  refine congrArg _ (funext fun a => Fin.ext ?_)
  obtain ⟨-, -, -, -, e0, e1, -⟩ := block_index t
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- The second weights' block is the whole matrix. -/
theorem wh_block (c : Dev nD) (t : Fin cfg0.N) : iblk0 V c 3 t = V c main_arg11 := by
  funext y
  show V c main_arg11 (((cfg0.win 3).blk t).view.emb y) = V c main_arg11 y
  refine congrArg _ (funext fun a => Fin.ext ?_)
  obtain ⟨-, -, -, -, -, -, e0, e1, -⟩ := block_index t
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The third weights' block is the whole matrix. -/
theorem ws_block (c : Dev nD) (t : Fin cfg0.N) : iblk0 V c 4 t = V c main_arg13 := by
  funext y
  show V c main_arg13 (((cfg0.win 4).blk t).view.emb y) = V c main_arg13 y
  refine congrArg _ (funext fun a => Fin.ext ?_)
  obtain ⟨-, -, -, -, -, -, -, -, e0, e1, -⟩ := block_index t
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- Entry (p, q) of each result's block at point t is entry (4000·t + p, q) of its array. -/
theorem gate_out_emb (t : Fin cfg0.N) (p : Fin 4000) (q : Fin 64) :
    ((cfg0.win 5).blk t).view.emb (ix2 p q) = ix2 (rowOf t p) q := by
  funext a; apply Fin.ext
  obtain ⟨-, -, -, -, -, -, -, -, -, -, e0, e1, -⟩ := block_index t
  match a with
  | ⟨0, _⟩ => show win0_5.index t (0 : Fin 2) * 4000 + 1 * p.val = t.val * 4000 + p.val; rw [e0]; omega
  | ⟨1, _⟩ => show win0_5.index t (1 : Fin 2) * 64 + 1 * q.val = q.val; rw [e1]; omega

theorem prod_h_out_emb (t : Fin cfg0.N) (p : Fin 4000) (q : Fin 64) :
    ((cfg0.win 6).blk t).view.emb (ix2 p q) = ix2 (rowOf t p) q := by
  funext a; apply Fin.ext
  obtain ⟨-, -, -, -, -, -, -, -, -, -, -, -, e0, e1, -⟩ := block_index t
  match a with
  | ⟨0, _⟩ => show win0_6.index t (0 : Fin 2) * 4000 + 1 * p.val = t.val * 4000 + p.val; rw [e0]; omega
  | ⟨1, _⟩ => show win0_6.index t (1 : Fin 2) * 64 + 1 * q.val = q.val; rw [e1]; omega

theorem prod_s_out_emb (t : Fin cfg0.N) (p : Fin 4000) (q : Fin 64) :
    ((cfg0.win 7).blk t).view.emb (ix2 p q) = ix2 (rowOf t p) q := by
  funext a; apply Fin.ext
  obtain ⟨-, -, -, -, -, -, -, -, -, -, -, -, -, -, e0, e1⟩ := block_index t
  match a with
  | ⟨0, _⟩ => show win0_7.index t (0 : Fin 2) * 4000 + 1 * p.val = t.val * 4000 + p.val; rw [e0]; omega
  | ⟨1, _⟩ => show win0_7.index t (1 : Fin 2) * 64 + 1 * q.val = q.val; rw [e1]; omega

/-! ## What each point writes back is its row block of the whole-array function -/

theorem gate_written (c : Dev nD) (t : Fin cfg0.N) :
    (dat0 V c).flushed 5 t
      = ((cfg0.win 5).blk t).view.read (Elt Ideal) (Layer.gate (V c main_arg1) (V c main_arg7) (V c main_v0)) := by
  show (cfg0.win 5).cut (grid0.coords t) ((dat0 V c).after 5 t) = _
  rw [after0_5]
  unfold out0_5
  rw [View.canon_unit_zero zero_offsets]
  simp only [View.ld_unit_zero (S := S4000x64) zero_offsets, View.ld_unit_zero (S := S64x64) zero_offsets,
    View.ld_unit_zero (S := S1x64) zero_offsets]
  rw [wg_block, bias_block]
  funext j
  obtain ⟨p, q, rfl⟩ : ∃ (p : Fin 4000) (q : Fin 64), j = ix2 p q := ⟨j 0, j 1, eq_ix2 j⟩
  show k0_pay2 (iblk0 V c 0 t) (V c main_arg7) (V c main_v0) (ix2 p q)
    = Layer.gate (V c main_arg1) (V c main_arg7) (V c main_v0) (((cfg0.win 5).blk t).view.emb (ix2 p q))
  rw [gate_out_emb, gate_block_apply]
  simp only [x_block_apply]
  rfl

theorem prod_h_written (c : Dev nD) (t : Fin cfg0.N) :
    (dat0 V c).flushed 6 t
      = ((cfg0.win 6).blk t).view.read (Elt Ideal) (Layer.mm (V c main_arg1) (V c main_arg11)) := by
  show (cfg0.win 6).cut (grid0.coords t) ((dat0 V c).after 6 t) = _
  rw [after0_6]
  unfold out0_6
  rw [View.canon_unit_zero zero_offsets]
  simp only [View.ld_unit_zero (S := S4000x64) zero_offsets, View.ld_unit_zero (S := S64x64) zero_offsets]
  rw [wh_block]
  funext j
  obtain ⟨p, q, rfl⟩ : ∃ (p : Fin 4000) (q : Fin 64), j = ix2 p q := ⟨j 0, j 1, eq_ix2 j⟩
  show k0_pay3 (iblk0 V c 0 t) (V c main_arg11) (ix2 p q)
    = Layer.mm (V c main_arg1) (V c main_arg11) (((cfg0.win 6).blk t).view.emb (ix2 p q))
  rw [prod_h_out_emb, prod_h_block_apply]
  simp only [x_block_apply]
  rfl

theorem prod_s_written (c : Dev nD) (t : Fin cfg0.N) :
    (dat0 V c).flushed 7 t
      = ((cfg0.win 7).blk t).view.read (Elt Ideal) (Layer.mm (V c main_arg1) (V c main_arg13)) := by
  show (cfg0.win 7).cut (grid0.coords t) ((dat0 V c).after 7 t) = _
  rw [after0_7]
  unfold out0_7
  rw [View.canon_unit_zero zero_offsets]
  simp only [View.ld_unit_zero (S := S4000x64) zero_offsets, View.ld_unit_zero (S := S64x64) zero_offsets]
  rw [ws_block]
  funext j
  obtain ⟨p, q, rfl⟩ : ∃ (p : Fin 4000) (q : Fin 64), j = ix2 p q := ⟨j 0, j 1, eq_ix2 j⟩
  show k0_pay4 (iblk0 V c 0 t) (V c main_arg13) (ix2 p q)
    = Layer.mm (V c main_arg1) (V c main_arg13) (((cfg0.win 7).blk t).view.emb (ix2 p q))
  rw [prod_s_out_emb, prod_s_block_apply]
  simp only [x_block_apply]
  rfl

/-! ## The row blocks tile the rows -/

/-- An index of a result array is in point t's block iff each coordinate is in the block's range on its axis. -/
theorem mem_gate_out (t : Fin cfg0.N) (i : S200000x64.Idx) :
    i ∈ ((cfg0.win 5).blk t).view.set ↔ ∀ a : Fin 2, win0_5.index t a * S4000x64.size a ≤ (i a).val
      ∧ (i a).val < win0_5.index t a * S4000x64.size a + S4000x64.size a := by
  show i ∈ ((View.whole main_v1_0).slice (win0_5.rect t)).set ↔ _
  rw [View.set_slice_whole, Rect.mem_set_unit]
  exact Iff.rfl

theorem mem_prod_h_out (t : Fin cfg0.N) (i : S200000x64.Idx) :
    i ∈ ((cfg0.win 6).blk t).view.set ↔ ∀ a : Fin 2, win0_6.index t a * S4000x64.size a ≤ (i a).val
      ∧ (i a).val < win0_6.index t a * S4000x64.size a + S4000x64.size a := by
  show i ∈ ((View.whole main_v1_1).slice (win0_6.rect t)).set ↔ _
  rw [View.set_slice_whole, Rect.mem_set_unit]
  exact Iff.rfl

theorem mem_prod_s_out (t : Fin cfg0.N) (i : S200000x64.Idx) :
    i ∈ ((cfg0.win 7).blk t).view.set ↔ ∀ a : Fin 2, win0_7.index t a * S4000x64.size a ≤ (i a).val
      ∧ (i a).val < win0_7.index t a * S4000x64.size a + S4000x64.size a := by
  show i ∈ ((View.whole main_v1_2).slice (win0_7.rect t)).set ↔ _
  rw [View.set_slice_whole, Rect.mem_set_unit]
  exact Iff.rfl

/-- The point whose row block holds row r: r / 4000. -/
def pointOf (i : S200000x64.Idx) : Fin cfg0.N :=
  ⟨(i 0).val / 4000, by have := idx2_lt0 i; show (i 0).val / 4000 < 50; omega⟩

theorem pointOf_val (i : S200000x64.Idx) : (pointOf i).val = (i 0).val / 4000 := rfl

/-- Every entry of the first result array is in the block of the point its row belongs to. -/
theorem gate_cover (i : S200000x64.Idx) :
    ∃ t : Fin cfg0.N, (cfg0.win 5).flush t = true ∧ i ∈ ((cfg0.win 5).blk t).view.set := by
  refine ⟨pointOf i, flush0_5 _, ?_⟩
  rw [mem_gate_out]
  obtain ⟨-, -, -, -, -, -, -, -, -, -, e0, e1, -⟩ := block_index (pointOf i)
  have h0 := idx2_lt0 i
  have h1 := idx2_lt1 i
  have hv := pointOf_val i
  intro a
  match a with
  | ⟨0, _⟩ =>
    show win0_5.index (pointOf i) (0 : Fin 2) * 4000 ≤ (i 0).val
      ∧ (i 0).val < win0_5.index (pointOf i) (0 : Fin 2) * 4000 + 4000
    rw [e0, hv]; omega
  | ⟨1, _⟩ =>
    show win0_5.index (pointOf i) (1 : Fin 2) * 64 ≤ (i 1).val
      ∧ (i 1).val < win0_5.index (pointOf i) (1 : Fin 2) * 64 + 64
    rw [e1]; omega

theorem prod_h_cover (i : S200000x64.Idx) :
    ∃ t : Fin cfg0.N, (cfg0.win 6).flush t = true ∧ i ∈ ((cfg0.win 6).blk t).view.set := by
  refine ⟨pointOf i, flush0_6 _, ?_⟩
  rw [mem_prod_h_out]
  obtain ⟨-, -, -, -, -, -, -, -, -, -, -, -, e0, e1, -⟩ := block_index (pointOf i)
  have h0 := idx2_lt0 i
  have h1 := idx2_lt1 i
  have hv := pointOf_val i
  intro a
  match a with
  | ⟨0, _⟩ =>
    show win0_6.index (pointOf i) (0 : Fin 2) * 4000 ≤ (i 0).val
      ∧ (i 0).val < win0_6.index (pointOf i) (0 : Fin 2) * 4000 + 4000
    rw [e0, hv]; omega
  | ⟨1, _⟩ =>
    show win0_6.index (pointOf i) (1 : Fin 2) * 64 ≤ (i 1).val
      ∧ (i 1).val < win0_6.index (pointOf i) (1 : Fin 2) * 64 + 64
    rw [e1]; omega

theorem prod_s_cover (i : S200000x64.Idx) :
    ∃ t : Fin cfg0.N, (cfg0.win 7).flush t = true ∧ i ∈ ((cfg0.win 7).blk t).view.set := by
  refine ⟨pointOf i, flush0_7 _, ?_⟩
  rw [mem_prod_s_out]
  obtain ⟨-, -, -, -, -, -, -, -, -, -, -, -, -, -, e0, e1⟩ := block_index (pointOf i)
  have h0 := idx2_lt0 i
  have h1 := idx2_lt1 i
  have hv := pointOf_val i
  intro a
  match a with
  | ⟨0, _⟩ =>
    show win0_7.index (pointOf i) (0 : Fin 2) * 4000 ≤ (i 0).val
      ∧ (i 0).val < win0_7.index (pointOf i) (0 : Fin 2) * 4000 + 4000
    rw [e0, hv]; omega
  | ⟨1, _⟩ =>
    show win0_7.index (pointOf i) (1 : Fin 2) * 64 ≤ (i 1).val
      ∧ (i 1).val < win0_7.index (pointOf i) (1 : Fin 2) * 64 + 64
    rw [e1]; omega

/-! ## The three result arrays after the region -/

/-- After the region the first result array is the logistic function of X·Wg + bg. -/
theorem final0_5 (c : Dev nD) :
    (dat0 V c).arrAt 5 cfg0.N = Layer.gate (V c main_arg1) (V c main_arg7) (V c main_v0) := by
  exact (dat0 V c).arrAt_eq_of_cover 5 _ (fun t _ => gate_written V c t) gate_cover

/-- After the region the second result array is the product X·Wh. -/
theorem final0_6 (c : Dev nD) :
    (dat0 V c).arrAt 6 cfg0.N = Layer.mm (V c main_arg1) (V c main_arg11) := by
  exact (dat0 V c).arrAt_eq_of_cover 6 _ (fun t _ => prod_h_written V c t) prod_h_cover

/-- After the region the third result array is the product X·Ws. -/
theorem final0_7 (c : Dev nD) :
    (dat0 V c).arrAt 7 cfg0.N = Layer.mm (V c main_arg1) (V c main_arg13) := by
  exact (dat0 V c).arrAt_eq_of_cover 7 _ (fun t _ => prod_s_written V c t) prod_s_cover

end Cert.KernelIdeal.Region0

end
-- ==== Proof.Region1.lean ====
/-
  The second kernel region, read as whole arrays. Each grid point t loads rows 4000·t … 4000·t + 3999 of the node
  features X and of the node weights G, and the whole matrices Wn and Wv, and writes the same rows of two results: the
  updated node features tanh((X·Wn + bn) ∘ G), and their product with Wv. The 125 row blocks tile the 500000 rows, so
  after the region each result array is that function of the whole input arrays.
-/
import proofs.«158519_j20126216749524_1_alg».proof.Proof.Gen.KernelIdeal.Frame
import proofs.«158519_j20126216749524_1_alg».proof.Proof.Spec
import proofs.«158519_j20126216749524_1_alg».proof.Proof.LibPlainDot
import proofs.«158519_j20126216749524_1_alg».proof.Proof.LibRowSpread
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The matrix products of this region have the plain dimension numbers. -/
theorem plainDot : PlainDot.IsPlain dot_S4000x64_S64x64_S4000x64_1_0_0_1_n_n := ⟨rfl, rfl, rfl, rfl, rfl, rfl⟩

/-- A block's matrix product into the zero accumulator at the entry (p, q): the sum over k of l(p, k) · r(k, q). -/
theorem blockProduct_apply (l : S4000x64.Idx → EReal) (r : S64x64.Idx → EReal) (p : Fin 4000) (q : Fin 64) :
    matmul dot_S4000x64_S64x64_S4000x64_1_0_0_1_n_n none (truncf (F := Ideal) (φ := .f32) .bf16 l bitsLt_bf16_f32)
        (truncf (F := Ideal) (φ := .f32) .bf16 r bitsLt_bf16_f32) (constant S4000x64 .f32 0x00000000#32) (ix2 p q)
      = ∑ k : Fin 64, l (ix2 p k) * r (ix2 k q) :=
  (Ideal.matmul_constant_zero_apply dot_S4000x64_S64x64_S4000x64_1_0_0_1_n_n none
      (truncf (F := Ideal) (φ := .f32) .bf16 l bitsLt_bf16_f32) (truncf (F := Ideal) (φ := .f32) .bf16 r bitsLt_bf16_f32) (ix2 p q)).trans
    (PlainDot.sum_contr plainDot l r p q)

/-- The first stored value at the entry (p, q) of a block: tanh of (the row p of x0 times the column q of x1, plus the
    bias at q) weighted by x3 at (p, q). -/
theorem pay1_apply (x0 : Vec Ideal S4000x64 .f32) (x1 : Vec Ideal S64x64 .f32) (x2 : Vec Ideal S1x64 .f32)
    (x3 : Vec Ideal S4000x64 .f32) (p : Fin 4000) (q : Fin 64) :
    k1_pay1 x0 x1 x2 x3 (ix2 p q)
      = Ideal.tanh ((∑ k : Fin 64, x0 (ix2 p k) * x1 (ix2 k q) + x2 (ix2 (0 : Fin 1) q)) * x3 (ix2 p q)) := by
  unfold k1_pay1
  have hb : broadcastTo S4000x64 (shapeCast S1x64 x2 shapeCasts_S1x64_S1x64) broadcasts_S1x64_S4000x64 (ix2 p q)
      = x2 (ix2 (0 : Fin 1) q) := by
    rw [shapeCast_self]; exact Cert.Lib.RowSpread.spreadRows_apply x2 _ p q
  have hg : shapeCast S4000x64 x3 shapeCasts_S4000x64_S4000x64 (ix2 p q) = x3 (ix2 p q) := by rw [shapeCast_self]
  show Ideal.tanh ((matmul dot_S4000x64_S64x64_S4000x64_1_0_0_1_n_n none (truncf (F := Ideal) (φ := .f32) FTy.bf16 x0 bitsLt_bf16_f32)
            (truncf (F := Ideal) (φ := .f32) FTy.bf16 x1 bitsLt_bf16_f32) (constant S4000x64 FTy.f32 0x00000000#32) (ix2 p q)
      + broadcastTo S4000x64 (shapeCast S1x64 x2 shapeCasts_S1x64_S1x64) broadcasts_S1x64_S4000x64 (ix2 p q))
      * shapeCast S4000x64 x3 shapeCasts_S4000x64_S4000x64 (ix2 p q)) = _
  rw [hb, hg, blockProduct_apply x0 x1 p q]

/-- The second stored value at the entry (p, q) of a block: the row p of the first stored value times the column q of x4. -/
theorem pay2_apply (x0 : Vec Ideal S4000x64 .f32) (x1 : Vec Ideal S64x64 .f32) (x2 : Vec Ideal S1x64 .f32)
    (x3 : Vec Ideal S4000x64 .f32) (x4 : Vec Ideal S64x64 .f32) (p : Fin 4000) (q : Fin 64) :
    k1_pay2 x0 x1 x2 x3 x4 (ix2 p q) = ∑ j : Fin 64, k1_pay1 x0 x1 x2 x3 (ix2 p j) * x4 (ix2 j q) := by
  unfold k1_pay2
  exact blockProduct_apply (k1_pay1 x0 x1 x2 x3) x4 p q

/-! ## A block's results from the arrays' rows -/

/-- When a block's rows of x0 and x3 are the rows r(p) of the arrays X and G, and its x1, x2 are W and b, the first stored
    value at (p, q) is the updated feature at (r(p), q). -/
theorem upd_rows (X G : Layer.Mat 500000 64) (W : Layer.Mat 64 64) (b : Layer.Mat 1 64)
    (x0 : Vec Ideal S4000x64 .f32) (x1 : Vec Ideal S64x64 .f32) (x2 : Vec Ideal S1x64 .f32) (x3 : Vec Ideal S4000x64 .f32)
    (r : Fin 4000 → Fin 500000)
    (h0 : ∀ (p : Fin 4000) (k : Fin 64), x0 (ix2 p k) = X (ix2 (r p) k))
    (h1 : ∀ (k q : Fin 64), x1 (ix2 k q) = W (ix2 k q))
    (h2 : ∀ (z : Fin 1) (q : Fin 64), x2 (ix2 z q) = b (ix2 z q))
    (h3 : ∀ (p : Fin 4000) (q : Fin 64), x3 (ix2 p q) = G (ix2 (r p) q)) (p : Fin 4000) (q : Fin 64) :
    k1_pay1 x0 x1 x2 x3 (ix2 p q) = Layer.upd X W b G (ix2 (r p) q) := by
  rw [pay1_apply]
  show _ = Ideal.tanh ((∑ k : Fin 64, X (ix2 (r p) k) * W (ix2 k q) + b (ix2 (0 : Fin 1) q)) * G (ix2 (r p) q))
  simp only [h0, h1, h2, h3]

/-- and, when x4 is Wv, the second stored value at (p, q) is the product of the updated features with Wv at (r(p), q). -/
theorem updMm_rows (X G : Layer.Mat 500000 64) (W Wv : Layer.Mat 64 64) (b : Layer.Mat 1 64)
    (x0 : Vec Ideal S4000x64 .f32) (x1 : Vec Ideal S64x64 .f32) (x2 : Vec Ideal S1x64 .f32) (x3 : Vec Ideal S4000x64 .f32)
    (x4 : Vec Ideal S64x64 .f32) (r : Fin 4000 → Fin 500000)
    (h0 : ∀ (p : Fin 4000) (k : Fin 64), x0 (ix2 p k) = X (ix2 (r p) k))
    (h1 : ∀ (k q : Fin 64), x1 (ix2 k q) = W (ix2 k q))
    (h2 : ∀ (z : Fin 1) (q : Fin 64), x2 (ix2 z q) = b (ix2 z q))
    (h3 : ∀ (p : Fin 4000) (q : Fin 64), x3 (ix2 p q) = G (ix2 (r p) q))
    (h4 : ∀ (k q : Fin 64), x4 (ix2 k q) = Wv (ix2 k q)) (p : Fin 4000) (q : Fin 64) :
    k1_pay2 x0 x1 x2 x3 x4 (ix2 p q) = Layer.mm (Layer.upd X W b G) Wv (ix2 (r p) q) := by
  rw [pay2_apply]
  show _ = ∑ j : Fin 64, Layer.upd X W b G (ix2 (r p) j) * Wv (ix2 j q)
  exact Finset.sum_congr rfl fun j _ => by rw [upd_rows X G W b x0 x1 x2 x3 r h0 h1 h2 h3 p j, h4]

theorem zeroOffsets : (![0, 0] : Fin 2 → Nat) = fun _ => 0 := funext fun a => by fin_cases a <;> rfl

/-- The row-blocked windows (X, G and the two results) sit at block row t, block column 0, at every grid point t. -/
theorem rowBlockIndex : ∀ t : Fin cfg1.N,
    win1_0.index t (0 : Fin 2) = t.val ∧ win1_0.index t (1 : Fin 2) = 0
    ∧ win1_3.index t (0 : Fin 2) = t.val ∧ win1_3.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The whole-matrix windows (Wn, the bias row, Wv) sit at block (0, 0) at every grid point. -/
theorem wholeBlockIndex : ∀ t : Fin cfg1.N,
    win1_1.index t (0 : Fin 2) = 0 ∧ win1_1.index t (1 : Fin 2) = 0
    ∧ win1_2.index t (0 : Fin 2) = 0 ∧ win1_2.index t (1 : Fin 2) = 0
    ∧ win1_4.index t (0 : Fin 2) = 0 ∧ win1_4.index t (1 : Fin 2) = 0 :=
  (by decide +kernel : ∀ t : Fin grid1.N, _)

/-- The grid has 125 points. -/
theorem point_lt (t : Fin cfg1.N) : t.val < 125 := lt_of_lt_of_eq t.isLt N_1

/-- Row p of block t is row 4000·t + p of the array. -/
def rowOf (t : Fin cfg1.N) (p : Fin 4000) : Fin 500000 :=
  ⟨t.val * 4000 + p.val, by have := point_lt t; have := p.isLt; omega⟩

/-! ## The windows' blocks, read off the arrays -/

/-- Block t of X holds rows 4000·t … 4000·t + 3999 of X. -/
theorem blockX (c : Dev nD) (t : Fin cfg1.N) (p : Fin 4000) (k : Fin 64) :
    iblk1 V c 0 t (ix2 p k) = V c main_arg0 (ix2 (rowOf t p) k) := by
  show V c main_arg0 (((cfg1.win 0).blk t).view.emb (ix2 p k)) = _
  refine congrArg _ ?_
  funext a; apply Fin.ext
  obtain ⟨e0, e1, -⟩ := rowBlockIndex t
  match a with
  | ⟨0, _⟩ => show win1_0.index t (0 : Fin 2) * 4000 + 1 * p.val = t.val * 4000 + p.val; rw [e0]; omega
  | ⟨1, _⟩ => show win1_0.index t (1 : Fin 2) * 64 + 1 * k.val = k.val; rw [e1]; omega

/-- Block t of G holds the same rows of G. -/
theorem blockG (c : Dev nD) (t : Fin cfg1.N) (p : Fin 4000) (q : Fin 64) :
    iblk1 V c 3 t (ix2 p q) = V c main_v11 (ix2 (rowOf t p) q) := by
  show V c main_v11 (((cfg1.win 3).blk t).view.emb (ix2 p q)) = _
  refine congrArg _ ?_
  funext a; apply Fin.ext
  obtain ⟨-, -, e0, e1, -⟩ := rowBlockIndex t
  match a with
  | ⟨0, _⟩ => show win1_3.index t (0 : Fin 2) * 4000 + 1 * p.val = t.val * 4000 + p.val; rw [e0]; omega
  | ⟨1, _⟩ => show win1_3.index t (1 : Fin 2) * 64 + 1 * q.val = q.val; rw [e1]; omega

/-- Every point's block of Wn is Wn. -/
theorem blockWn (c : Dev nD) (t : Fin cfg1.N) (k q : Fin 64) :
    iblk1 V c 1 t (ix2 k q) = V c main_arg9 (ix2 k q) := by
  show V c main_arg9 (((cfg1.win 1).blk t).view.emb (ix2 k q)) = _
  refine congrArg _ ?_
  funext a; apply Fin.ext
  obtain ⟨e0, e1, -⟩ := wholeBlockIndex t
  match a with
  | ⟨0, _⟩ => show win1_1.index t (0 : Fin 2) * 64 + 1 * k.val = k.val; rw [e0]; omega
  | ⟨1, _⟩ => show win1_1.index t (1 : Fin 2) * 64 + 1 * q.val = q.val; rw [e1]; omega

/-- Every point's block of the bias row is the bias row. -/
theorem blockBias (c : Dev nD) (t : Fin cfg1.N) (z : Fin 1) (q : Fin 64) :
    iblk1 V c 2 t (ix2 z q) = V c main_v12 (ix2 z q) := by
  show V c main_v12 (((cfg1.win 2).blk t).view.emb (ix2 z q)) = _
  refine congrArg _ ?_
  funext a; apply Fin.ext
  obtain ⟨-, -, e0, e1, -⟩ := wholeBlockIndex t
  match a with
  | ⟨0, _⟩ => show win1_2.index t (0 : Fin 2) * 1 + 1 * z.val = z.val; rw [e0]; omega
  | ⟨1, _⟩ => show win1_2.index t (1 : Fin 2) * 64 + 1 * q.val = q.val; rw [e1]; omega

/-- Every point's block of Wv is Wv. -/
theorem blockWv (c : Dev nD) (t : Fin cfg1.N) (k q : Fin 64) :
    iblk1 V c 4 t (ix2 k q) = V c main_arg12 (ix2 k q) := by
  show V c main_arg12 (((cfg1.win 4).blk t).view.emb (ix2 k q)) = _
  refine congrArg _ ?_
  funext a; apply Fin.ext
  obtain ⟨-, -, -, -, e0, e1⟩ := wholeBlockIndex t
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-! ## The result windows' blocks in their arrays -/

/-- Entry (p, q) of the first result's block t is entry (4000·t + p, q) of its array. -/
theorem emb5 (t : Fin cfg1.N) (p : Fin 4000) (q : Fin 64) :
    ((cfg1.win 5).blk t).view.emb (ix2 p q) = ix2 (rowOf t p) q := by
  funext a; apply Fin.ext
  obtain ⟨-, -, -, -, e0, e1, -⟩ := rowBlockIndex t
  match a with
  | ⟨0, _⟩ => show win1_5.index t (0 : Fin 2) * 4000 + 1 * p.val = t.val * 4000 + p.val; rw [e0]; omega
  | ⟨1, _⟩ => show win1_5.index t (1 : Fin 2) * 64 + 1 * q.val = q.val; rw [e1]; omega

/-- Entry (p, q) of the second result's block t is entry (4000·t + p, q) of its array. -/
theorem emb6 (t : Fin cfg1.N) (p : Fin 4000) (q : Fin 64) :
    ((cfg1.win 6).blk t).view.emb (ix2 p q) = ix2 (rowOf t p) q := by
  funext a; apply Fin.ext
  obtain ⟨-, -, -, -, -, -, e0, e1⟩ := rowBlockIndex t
  match a with
  | ⟨0, _⟩ => show win1_6.index t (0 : Fin 2) * 4000 + 1 * p.val = t.val * 4000 + p.val; rw [e0]; omega
  | ⟨1, _⟩ => show win1_6.index t (1 : Fin 2) * 64 + 1 * q.val = q.val; rw [e1]; omega

/-! ## What each point writes back -/

/-- Point t writes block t of tanh((X·Wn + bn) ∘ G) to the first result. -/
theorem flushed5_eq (c : Dev nD) (t : Fin cfg1.N) :
    (dat1 V c).flushed 5 t = ((cfg1.win 5).blk t).view.read (Elt Ideal)
      (Layer.upd (V c main_arg0) (V c main_arg9) (V c main_v12) (V c main_v11)) := by
  show (cfg1.win 5).cut (grid1.coords t) ((dat1 V c).after 5 t) = _
  rw [after1_5]
  unfold out1_5
  rw [View.canon_unit_zero zeroOffsets]
  simp only [View.ld_unit_zero (S := S4000x64) zeroOffsets, View.ld_unit_zero (S := S64x64) zeroOffsets,
    View.ld_unit_zero (S := S1x64) zeroOffsets]
  funext j
  obtain ⟨p, q, rfl⟩ : ∃ (p : Fin 4000) (q : Fin 64), j = ix2 p q := ⟨j 0, j 1, eq_ix2 j⟩
  show k1_pay1 (iblk1 V c 0 t) (iblk1 V c 1 t) (iblk1 V c 2 t) (iblk1 V c 3 t) (ix2 p q)
    = Layer.upd (V c main_arg0) (V c main_arg9) (V c main_v12) (V c main_v11) (((cfg1.win 5).blk t).view.emb (ix2 p q))
  rw [emb5]
  exact upd_rows _ _ _ _ _ _ _ _ (rowOf t) (blockX V c t) (blockWn V c t) (blockBias V c t) (blockG V c t) p q

/-- Point t writes block t of tanh((X·Wn + bn) ∘ G)·Wv to the second result. -/
theorem flushed6_eq (c : Dev nD) (t : Fin cfg1.N) :
    (dat1 V c).flushed 6 t = ((cfg1.win 6).blk t).view.read (Elt Ideal)
      (Layer.mm (Layer.upd (V c main_arg0) (V c main_arg9) (V c main_v12) (V c main_v11)) (V c main_arg12)) := by
  show (cfg1.win 6).cut (grid1.coords t) ((dat1 V c).after 6 t) = _
  rw [after1_6]
  unfold out1_6
  rw [View.canon_unit_zero zeroOffsets]
  simp only [View.ld_unit_zero (S := S4000x64) zeroOffsets, View.ld_unit_zero (S := S64x64) zeroOffsets,
    View.ld_unit_zero (S := S1x64) zeroOffsets]
  funext j
  obtain ⟨p, q, rfl⟩ : ∃ (p : Fin 4000) (q : Fin 64), j = ix2 p q := ⟨j 0, j 1, eq_ix2 j⟩
  show k1_pay2 (iblk1 V c 0 t) (iblk1 V c 1 t) (iblk1 V c 2 t) (iblk1 V c 3 t) (iblk1 V c 4 t) (ix2 p q)
    = Layer.mm (Layer.upd (V c main_arg0) (V c main_arg9) (V c main_v12) (V c main_v11)) (V c main_arg12)
        (((cfg1.win 6).blk t).view.emb (ix2 p q))
  rw [emb6]
  exact updMm_rows _ _ _ _ _ _ _ _ _ _ (rowOf t) (blockX V c t) (blockWn V c t) (blockBias V c t) (blockG V c t)
    (blockWv V c t) p q

/-! ## The row blocks tile the rows -/

/-- An index of the first result is in point t's block iff each coordinate is in the block's range on its axis. -/
theorem mem_blk5 (t : Fin cfg1.N) (i : S500000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v13_0).slice (win1_5.rect t)).set ↔ _
  rw [View.set_slice_whole, Rect.mem_set_unit]
  exact Iff.rfl

/-- An index of the second result is in point t's block iff each coordinate is in the block's range on its axis. -/
theorem mem_blk6 (t : Fin cfg1.N) (i : S500000x64.Idx) :
    i ∈ ((cfg1.win 6).blk t).view.set ↔ ∀ a : Fin 2, win1_6.index t a * S4000x64.size a ≤ (i a).val
      ∧ (i a).val < win1_6.index t a * S4000x64.size a + S4000x64.size a := by
  show i ∈ ((View.whole main_v13_1).slice (win1_6.rect t)).set ↔ _
  rw [View.set_slice_whole, Rect.mem_set_unit]
  exact Iff.rfl

/-- The point whose block holds row r: r / 4000. -/
def pointOf (i : S500000x64.Idx) : Fin cfg1.N :=
  ⟨(i 0).val / 4000, by have h : (i 0).val < 500000 := idx2_lt0 i; rw [show cfg1.N = 125 from N_1]; omega⟩

/-- Every index of the first result is in the block of the point r / 4000, which is written back. -/
theorem cover5 (i : S500000x64.Idx) :
    ∃ t : Fin cfg1.N, (cfg1.win 5).flush t = true ∧ i ∈ ((cfg1.win 5).blk t).view.set := by
  have hi0 : (i 0).val < 500000 := idx2_lt0 i
  have hi1 : (i 1).val < 64 := idx2_lt1 i
  refine ⟨pointOf i, flush1_5 _, ?_⟩
  rw [mem_blk5]
  obtain ⟨-, -, -, -, e0, e1, -⟩ := rowBlockIndex (pointOf i)
  have ht : (pointOf i).val = (i 0).val / 4000 := rfl
  intro a
  match a with
  | ⟨0, _⟩ =>
    show win1_5.index (pointOf i) (0 : Fin 2) * 4000 ≤ (i 0).val
      ∧ (i 0).val < win1_5.index (pointOf i) (0 : Fin 2) * 4000 + 4000
    rw [e0, ht]; omega
  | ⟨1, _⟩ =>
    show win1_5.index (pointOf i) (1 : Fin 2) * 64 ≤ (i 1).val
      ∧ (i 1).val < win1_5.index (pointOf i) (1 : Fin 2) * 64 + 64
    rw [e1]; omega

/-- Every index of the second result is in the block of the point r / 4000, which is written back. -/
theorem cover6 (i : S500000x64.Idx) :
    ∃ t : Fin cfg1.N, (cfg1.win 6).flush t = true ∧ i ∈ ((cfg1.win 6).blk t).view.set := by
  have hi0 : (i 0).val < 500000 := idx2_lt0 i
  have hi1 : (i 1).val < 64 := idx2_lt1 i
  refine ⟨pointOf i, flush1_6 _, ?_⟩
  rw [mem_blk6]
  obtain ⟨-, -, -, -, -, -, e0, e1⟩ := rowBlockIndex (pointOf i)
  have ht : (pointOf i).val = (i 0).val / 4000 := rfl
  intro a
  match a with
  | ⟨0, _⟩ =>
    show win1_6.index (pointOf i) (0 : Fin 2) * 4000 ≤ (i 0).val
      ∧ (i 0).val < win1_6.index (pointOf i) (0 : Fin 2) * 4000 + 4000
    rw [e0, ht]; omega
  | ⟨1, _⟩ =>
    show win1_6.index (pointOf i) (1 : Fin 2) * 64 ≤ (i 1).val
      ∧ (i 1).val < win1_6.index (pointOf i) (1 : Fin 2) * 64 + 64
    rw [e1]; omega

/-! ## The result arrays after the region -/

/-- After the region the first result array is tanh((X·Wn + bn) ∘ G). -/
theorem final1_5 (c : Dev nD) :
    (dat1 V c).arrAt 5 cfg1.N = Layer.upd (V c main_arg0) (V c main_arg9) (V c main_v12) (V c main_v11) :=
  (dat1 V c).arrAt_eq_of_cover 5 _ (fun t _ => flushed5_eq V c t) cover5

/-- After the region the second result array is the product of the first result with Wv. -/
theorem final1_6 (c : Dev nD) :
    (dat1 V c).arrAt 6 cfg1.N
      = Layer.mm (Layer.upd (V c main_arg0) (V c main_arg9) (V c main_v12) (V c main_v11)) (V c main_arg12) :=
  (dat1 V c).arrAt_eq_of_cover 6 _ (fun t _ => flushed6_eq V c t) cover6

end Cert.KernelIdeal.Region1

end
-- ==== Proof.Region2.lean ====
/-
  The third kernel region, read as whole arrays. Each grid point t loads rows 8000·t … 8000·t + 7999 of two
  arrays A and B and writes the same rows of A ∘ logistic(B). The 250 row blocks tile the 2000000 rows, so after the
  region the result array is that function of the whole input arrays.
-/
import proofs.«158519_j20126216749524_1_alg».proof.Proof.Gen.KernelIdeal.Frame
import proofs.«158519_j20126216749524_1_alg».proof.Proof.Spec
import proofs.«158519_j20126216749524_1_alg».proof.Proof.LibPlainDot
import proofs.«158519_j20126216749524_1_alg».proof.Proof.LibRowSpread
import Idealize.ShloMosaic.Lib.Pipeline.Value
import Idealize.ShloMosaic.Lib.ValueIdx

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The store's offsets are zero on both axes. -/
theorem zero_offsets : (![0, 0] : Fin 2 → Nat) = fun _ => 0 := funext fun a => by fin_cases a <;> rfl

/-- The body's arithmetic at an entry of a block: the first block's entry times the logistic function of the second's. -/
theorem pay_apply (x0 x1 : Vec Ideal S8000x64 .f32) (j : S8000x64.Idx) :
    k2_pay1 x0 x1 j = x0 j * Ideal.logistic (x1 j) := by
  unfold k2_pay1
  rw [shapeCast_self, shapeCast_self]
  rfl

/-- If the two blocks' entries at j are the two arrays' entries at i, the body's result at j is A ∘ logistic(B) at i. -/
theorem pay_at (x0 x1 : Vec Ideal S8000x64 .f32) (A B : Layer.Mat 2000000 64) (j : S8000x64.Idx) (i : S2000000x64.Idx)
    (h0 : x0 j = A i) (h1 : x1 j = B i) : k2_pay1 x0 x1 j = Layer.msg A B i := by
  rw [pay_apply, h0, h1]; rfl

/-- At grid point t every window's block is row block t, column block 0. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What grid point t writes back is block t of A ∘ logistic(B) of the whole input arrays. -/
theorem flushed_eq (c : Dev nD) (t : Fin cfg2.N) :
    (dat2 V c).flushed 2 t = ((cfg2.win 2).blk t).view.read (Elt Ideal) (Layer.msg (V c main_v20) (V c main_v27)) := by
  show (cfg2.win 2).cut (grid2.coords t) ((dat2 V c).after 2 t) = _
  rw [after2_2]
  unfold out2_2
  rw [View.canon_unit_zero zero_offsets]
  simp only [View.ld_unit_zero (S := S8000x64) zero_offsets]
  funext j
  obtain ⟨a0, a1, b0, b1, o0, o1⟩ := block_index t
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 64 + 1 * (j 1).val = win2_2.index t (1 : Fin 2) * 64 + 1 * (j 1).val; omega
  show k2_pay1 (iblk2 V c 0 t) (iblk2 V c 1 t) j
    = Layer.msg (V c main_v20) (V c main_v27) (((cfg2.win 2).blk t).view.emb j)
  refine pay_at (iblk2 V c 0 t) (iblk2 V c 1 t) (V c main_v20) (V c main_v27) j (((cfg2.win 2).blk t).view.emb j) ?_ ?_
  · show V c main_v20 (((cfg2.win 0).blk t).view.emb j) = V c main_v20 (((cfg2.win 2).blk t).view.emb j)
    rw [h0]
  · show V c main_v27 (((cfg2.win 1).blk t).view.emb j) = V c main_v27 (((cfg2.win 2).blk t).view.emb j)
    rw [h1]

/-- An index of the array is in point t's block iff each coordinate is in the block's range on its axis. -/
theorem mem_block (t : Fin cfg2.N) (i : S2000000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v28).slice (win2_2.rect t)).set ↔ _
  rw [View.set_slice_whole, Rect.mem_set_unit]
  exact Iff.rfl

/-- Every entry of the array lies in the block of the point its row falls in: row r is in row block r / 8000. -/
theorem cover (i : S2000000x64.Idx) :
    ∃ t : Fin cfg2.N, (cfg2.win 2).flush t = true ∧ i ∈ ((cfg2.win 2).blk t).view.set := by
  have hi0 : (i 0).val < 2000000 := (i 0).isLt
  have hi1 : (i 1).val < 64 := (i 1).isLt
  have hN : cfg2.N = 250 := N_2
  let t : Fin cfg2.N := ⟨(i 0).val / 8000, by rw [hN]; omega⟩
  obtain ⟨a0, a1, b0, b1, o0, o1⟩ := block_index t
  have ht : t.val = (i 0).val / 8000 := rfl
  refine ⟨t, flush2_2 t, ?_⟩
  rw [mem_block]
  intro a
  match a with
  | ⟨0, _⟩ => show win2_2.index t (0 : Fin 2) * 8000 ≤ (i 0).val ∧ (i 0).val < win2_2.index t (0 : Fin 2) * 8000 + 8000; omega
  | ⟨1, _⟩ => show win2_2.index t (1 : Fin 2) * 64 ≤ (i 1).val ∧ (i 1).val < win2_2.index t (1 : Fin 2) * 64 + 64; omega

/-- After the region the result array is A ∘ logistic(B). -/
theorem final2_2 (c : Dev nD) :
    (dat2 V c).arrAt 2 cfg2.N = Layer.msg (V c main_v20) (V c main_v27) :=
  (dat2 V c).arrAt_eq_of_cover 2 (Layer.msg (V c main_v20) (V c main_v27)) (fun t _ => flushed_eq V c t) cover

end Cert.KernelIdeal.Region2

end
-- ==== Proof.Region3.lean ====
/-
  The fourth kernel region, read as whole arrays. Each grid point t loads rows 4000·t … 4000·t + 3999 of two
  arrays S and A and the one-row matrix b, and writes the same rows of tanh(S + A + b). The 50 row blocks tile the
  200000 rows, so after the region the result array is that function of the whole input arrays.
-/
import proofs.«158519_j20126216749524_1_alg».proof.Proof.Gen.KernelIdeal.Frame
import proofs.«158519_j20126216749524_1_alg».proof.Proof.Spec
import proofs.«158519_j20126216749524_1_alg».proof.Proof.LibPlainDot
import proofs.«158519_j20126216749524_1_alg».proof.Proof.LibRowSpread
import Idealize.ShloMosaic.Lib.Pipeline.Value
import Idealize.ShloMosaic.Lib.ValueIdx

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The store's and the loads' offsets are zero on both axes. -/
theorem zero_offsets : (![0, 0] : Fin 2 → Nat) = fun _ => 0 := funext fun a => by fin_cases a <;> rfl

/-- The body's arithmetic at entry (p, q) of a block: tanh of the two blocks' entries plus the one-row matrix's entry in column q. -/
theorem pay_apply (x0 x1 : Vec Ideal S4000x64 .f32) (x2 : Vec Ideal S1x64 .f32) (p : Fin 4000) (q : Fin 64) :
    k3_pay1 x0 x1 x2 (ix2 p q) = Ideal.tanh (x0 (ix2 p q) + x1 (ix2 p q) + x2 (ix2 (0 : Fin 1) q)) := by
  unfold k3_pay1
  rw [shapeCast_self, shapeCast_self, shapeCast_self]
  show Ideal.tanh (x0 (ix2 p q) + x1 (ix2 p q) + broadcastTo S4000x64 x2 broadcasts_S1x64_S4000x64 (ix2 p q)) = _
  rw [Cert.Lib.RowSpread.spreadRows_apply]

/-- If the blocks' entries at (p, q) are the arrays' entries at (r, q), and the one-row blocks agree in column q, the body's
    result at (p, q) is tanh(S + A + b) at (r, q). -/
theorem pay_at (x0 x1 : Vec Ideal S4000x64 .f32) (x2 : Vec Ideal S1x64 .f32) (S A : Layer.Mat 200000 64) (b : Layer.Mat 1 64)
    (p : Fin 4000) (q : Fin 64) (r : Fin 200000)
    (h0 : x0 (ix2 p q) = S (ix2 r q)) (h1 : x1 (ix2 p q) = A (ix2 r q)) (h2 : x2 (ix2 (0 : Fin 1) q) = b (ix2 (0 : Fin 1) q)) :
    k3_pay1 x0 x1 x2 (ix2 p q) = Layer.fin S A b (ix2 r q) := by
  rw [pay_apply, h0, h1, h2]; rfl

/-- At grid point t the row-blocked windows' block is row block t, column block 0; the one-row matrix's block is the whole matrix. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What grid point t writes back is block t of tanh(S + A + b) of the whole input arrays. -/
theorem flushed_eq (c : Dev nD) (t : Fin cfg3.N) :
    (dat3 V c).flushed 3 t = ((cfg3.win 3).blk t).view.read (Elt Ideal) (Layer.fin (V c main_v1_2) (V c main_v31) (V c main_v32)) := by
  show (cfg3.win 3).cut (grid3.coords t) ((dat3 V c).after 3 t) = _
  rw [after3_3]
  unfold out3_3
  rw [View.canon_unit_zero zero_offsets]
  simp only [View.ld_unit_zero (S := S4000x64) zero_offsets, View.ld_unit_zero (S := S1x64) zero_offsets]
  funext j
  obtain ⟨p, q, rfl⟩ : ∃ (p : Fin 4000) (q : Fin 64), j = ix2 p q := ⟨j 0, j 1, eq_ix2 j⟩
  obtain ⟨s0, s1, a0, a1, b0, b1, o0, o1⟩ := block_index t
  have ht : t.val < 50 := lt_of_lt_of_eq t.isLt N_3
  have hp : p.val < 4000 := p.isLt
  let r : Fin 200000 := ⟨t.val * 4000 + p.val, by omega⟩
  have hr : r.val = t.val * 4000 + p.val := rfl
  have e0 : ((cfg3.win 0).blk t).view.emb (ix2 p q) = ix2 r q := by
    funext a; apply Fin.ext
    match a with
    | ⟨0, _⟩ => show win3_0.index t (0 : Fin 2) * 4000 + 1 * p.val = r.val; omega
    | ⟨1, _⟩ => show win3_0.index t (1 : Fin 2) * 64 + 1 * q.val = q.val; omega
  have e1 : ((cfg3.win 1).blk t).view.emb (ix2 p q) = ix2 r q := by
    funext a; apply Fin.ext
    match a with
    | ⟨0, _⟩ => show win3_1.index t (0 : Fin 2) * 4000 + 1 * p.val = r.val; omega
    | ⟨1, _⟩ => show win3_1.index t (1 : Fin 2) * 64 + 1 * q.val = q.val; omega
  have e2 : ((cfg3.win 2).blk t).view.emb (ix2 (0 : Fin 1) q) = ix2 (0 : Fin 1) q := by
    funext a; apply Fin.ext
    match a with
    | ⟨0, _⟩ => show win3_2.index t (0 : Fin 2) * 1 + 1 * (0 : Fin 1).val = (0 : Fin 1).val; show win3_2.index t (0 : Fin 2) * 1 + 1 * 0 = 0; omega
    | ⟨1, _⟩ => show win3_2.index t (1 : Fin 2) * 64 + 1 * q.val = q.val; omega
  have e3 : ((cfg3.win 3).blk t).view.emb (ix2 p q) = ix2 r q := by
    funext a; apply Fin.ext
    match a with
    | ⟨0, _⟩ => show win3_3.index t (0 : Fin 2) * 4000 + 1 * p.val = r.val; omega
    | ⟨1, _⟩ => show win3_3.index t (1 : Fin 2) * 64 + 1 * q.val = q.val; omega
  show k3_pay1 (iblk3 V c 0 t) (iblk3 V c 1 t) (iblk3 V c 2 t) (ix2 p q)
    = Layer.fin (V c main_v1_2) (V c main_v31) (V c main_v32) (((cfg3.win 3).blk t).view.emb (ix2 p q))
  rw [e3]
  refine pay_at (iblk3 V c 0 t) (iblk3 V c 1 t) (iblk3 V c 2 t) (V c main_v1_2) (V c main_v31) (V c main_v32) p q r ?_ ?_ ?_
  · show V c main_v1_2 (((cfg3.win 0).blk t).view.emb (ix2 p q)) = V c main_v1_2 (ix2 r q)
    rw [e0]
  · show V c main_v31 (((cfg3.win 1).blk t).view.emb (ix2 p q)) = V c main_v31 (ix2 r q)
    rw [e1]
  · show V c main_v32 (((cfg3.win 2).blk t).view.emb (ix2 (0 : Fin 1) q)) = V c main_v32 (ix2 (0 : Fin 1) q)
    rw [e2]

/-- An index of the array is in point t's block iff each coordinate is in the block's range on its axis. -/
theorem mem_block (t : Fin cfg3.N) (i : S200000x64.Idx) :
    i ∈ ((cfg3.win 3).blk t).view.set ↔ ∀ a : Fin 2, win3_3.index t a * S4000x64.size a ≤ (i a).val ∧ (i a).val < win3_3.index t a * S4000x64.size a + S4000x64.size a := by
  show i ∈ ((View.whole main_v33).slice (win3_3.rect t)).set ↔ _
  rw [View.set_slice_whole, Rect.mem_set_unit]
  exact Iff.rfl

/-- Every entry of the array lies in the block of the point its row falls in: row r is in row block r / 4000. -/
theorem cover (i : S200000x64.Idx) :
    ∃ t : Fin cfg3.N, (cfg3.win 3).flush t = true ∧ i ∈ ((cfg3.win 3).blk t).view.set := by
  have hi0 : (i 0).val < 200000 := (i 0).isLt
  have hi1 : (i 1).val < 64 := (i 1).isLt
  have hN : cfg3.N = 50 := N_3
  let t : Fin cfg3.N := ⟨(i 0).val / 4000, by rw [hN]; omega⟩
  obtain ⟨s0, s1, a0, a1, b0, b1, o0, o1⟩ := block_index t
  have ht : t.val = (i 0).val / 4000 := rfl
  refine ⟨t, flush3_3 t, ?_⟩
  rw [mem_block]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 64 ≤ (i 1).val ∧ (i 1).val < win3_3.index t (1 : Fin 2) * 64 + 64; omega

/-- After the region the result array is tanh(S + A + b). -/
theorem final3_3 (c : Dev nD) :
    (dat3 V c).arrAt 3 cfg3.N = Layer.fin (V c main_v1_2) (V c main_v31) (V c main_v32) :=
  (dat3 V c).arrAt_eq_of_cover 3 (Layer.fin (V c main_v1_2) (V c main_v31) (V c main_v32)) (fun t _ => flushed_eq V c t) cover

end Cert.KernelIdeal.Region3

end
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.RefSide.lean ====
/-
  The reference's dense stages, read as whole arrays over the extended reals. A host matrix product is `Layer.mm`;
  a product plus a broadcast bias under jax's expansion of the logistic function (negate, exponential, add one,
  divide one by it) is `Layer.gate`; the node update and the final hyperedge update are `Layer.upd` and `Layer.fin`;
  a product weighted by the expanded logistic function of another product is `Layer.msg`.
-/
import proofs.«158519_j20126216749524_1_alg».proof.ReferenceIdeal
import proofs.«158519_j20126216749524_1_alg».proof.Proof.Gen.ReferenceIdeal
import proofs.«158519_j20126216749524_1_alg».proof.Proof.Spec
import proofs.«158519_j20126216749524_1_alg».proof.Proof.LibPlainDot
import proofs.«158519_j20126216749524_1_alg».proof.Proof.LibBroadcastInDim
import Idealize.ShloMosaic.Lib.IdealHost
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.TcCoe
open Idealize.ShloMosaic.ValueIdx

/-- The scalar with the bit pattern of the float one, spread over any shape, is the extended real one at every index. -/
private theorem splat_one {t : Shape} (h : S_.BroadcastsInDim t (![] : Fin 0 → Fin t.rank)) (j : t.Idx) :
    broadcastInDim t ![] h (constant (F := Ideal) S_ .f32 0x3F800000#32) j = (1 : EReal) :=
  Ideal.ofBits_one_f32

/-- The host product of a 200000-row matrix with a 64 × 64 matrix. -/
theorem dot200k_eq (X : FVec Ideal S200000x64 .f32) (W : FVec Ideal S64x64 .f32) :
    Host.dotGeneral dot_S200000x64_S64x64_S200000x64_1_0_0_1_n_n none X W = Layer.mm X W := by
  funext j
  obtain ⟨p, q, rfl⟩ : ∃ (p : Fin 200000) (q : Fin 64), j = ix2 p q := ⟨j 0, j 1, eq_ix2 j⟩
  exact (PlainDot.dotGeneral_apply ⟨rfl, rfl, rfl, rfl, rfl, rfl⟩ none .single X W p q).trans (Layer.mm_apply X W p q).symm

/-- The host product of a 500000-row matrix with a 64 × 64 matrix. -/
theorem dot500k_eq (X : FVec Ideal S500000x64 .f32) (W : FVec Ideal S64x64 .f32) :
    Host.dotGeneral dot_S500000x64_S64x64_S500000x64_1_0_0_1_n_n none X W = Layer.mm X W := by
  funext j
  obtain ⟨p, q, rfl⟩ : ∃ (p : Fin 500000) (q : Fin 64), j = ix2 p q := ⟨j 0, j 1, eq_ix2 j⟩
  exact (PlainDot.dotGeneral_apply ⟨rfl, rfl, rfl, rfl, rfl, rfl⟩ none .single X W p q).trans (Layer.mm_apply X W p q).symm

/-- The host product of a 2000000-row matrix with a 64 × 64 matrix. -/
theorem dot2M_eq (X : FVec Ideal S2000000x64 .f32) (W : FVec Ideal S64x64 .f32) :
    Host.dotGeneral dot_S2000000x64_S64x64_S2000000x64_1_0_0_1_n_n none X W = Layer.mm X W := by
  funext j
  obtain ⟨p, q, rfl⟩ : ∃ (p : Fin 2000000) (q : Fin 64), j = ix2 p q := ⟨j 0, j 1, eq_ix2 j⟩
  exact (PlainDot.dotGeneral_apply ⟨rfl, rfl, rfl, rfl, rfl, rfl⟩ none .single X W p q).trans (Layer.mm_apply X W p q).symm

/-- The hyperedge gate: one over one plus the exponential of minus (X·W + b) is the logistic function of X·W + b. -/
theorem gate_eq (X : FVec Ideal S200000x64 .f32) (W : FVec Ideal S64x64 .f32) (b : FVec Ideal S64 .f32) :
    Host.divf (broadcastInDim S200000x64 ![] bcast_S_S200000x64 (constant S_ .f32 0x3F800000#32))
      (addf (broadcastInDim S200000x64 ![] bcast_S_S200000x64 (constant S_ .f32 0x3F800000#32))
        (Host.exp (Host.negf (addf (Host.dotGeneral dot_S200000x64_S64x64_S200000x64_1_0_0_1_n_n none X W)
          (broadcastInDim S200000x64 ![0, 1] bcast_S1x64_S200000x64_0_1 (broadcastInDim S1x64 ![1] bcast_S64_S1x64_1 b))))))
      = Layer.gate X W (broadcastInDim S1x64 ![1] bcast_S64_S1x64_1 b) := by
  funext j
  obtain ⟨p, q, rfl⟩ : ∃ (p : Fin 200000) (q : Fin 64), j = ix2 p q := ⟨j 0, j 1, eq_ix2 j⟩
  have h1 := splat_one bcast_S_S200000x64 (ix2 p q)
  have hd := congrFun (dot200k_eq X W) (ix2 p q)
  have hb := ValueLayout.bcast_1n_rn_apply bcast_S1x64_S200000x64_0_1 (broadcastInDim S1x64 ![1] bcast_S64_S1x64_1 b) p q
  -- at (p, q): 1 / (1 + exp (-(X·W (p, q) + b q))), which is the logistic function's own definition
  show Ideal.div _ (_ + Ideal.exp (-(_ + _))) = _
  rw [h1, hd, hb]
  rfl

/-- The node update: tanh of (X·W + b) times the node weights G. -/
theorem upd_eq (X : FVec Ideal S500000x64 .f32) (W : FVec Ideal S64x64 .f32) (b : FVec Ideal S64 .f32)
    (G : FVec Ideal S500000x64 .f32) :
    Host.tanh (mulf (addf (Host.dotGeneral dot_S500000x64_S64x64_S500000x64_1_0_0_1_n_n none X W)
        (broadcastInDim S500000x64 ![0, 1] bcast_S1x64_S500000x64_0_1 (broadcastInDim S1x64 ![1] bcast_S64_S1x64_1 b))) G)
      = Layer.upd X W (broadcastInDim S1x64 ![1] bcast_S64_S1x64_1 b) G := by
  funext j
  obtain ⟨p, q, rfl⟩ : ∃ (p : Fin 500000) (q : Fin 64), j = ix2 p q := ⟨j 0, j 1, eq_ix2 j⟩
  have hd := congrFun (dot500k_eq X W) (ix2 p q)
  have hb := ValueLayout.bcast_1n_rn_apply bcast_S1x64_S500000x64_0_1 (broadcastInDim S1x64 ![1] bcast_S64_S1x64_1 b) p q
  -- at (p, q): tanh ((X·W (p, q) + b q) · G (p, q))
  show Ideal.tanh ((_ + _) * _) = _
  rw [hd, hb]
  rfl

/-- The message: A times one over one plus the exponential of minus B is A weighted by the logistic function of B. -/
theorem msg_eq (A B : FVec Ideal S2000000x64 .f32) :
    mulf A (Host.divf (broadcastInDim S2000000x64 ![] bcast_S_S2000000x64 (constant S_ .f32 0x3F800000#32))
      (addf (broadcastInDim S2000000x64 ![] bcast_S_S2000000x64 (constant S_ .f32 0x3F800000#32))
        (Host.exp (Host.negf B))))
      = Layer.msg A B := by
  funext j
  have h1 := splat_one bcast_S_S2000000x64 j
  -- at j: A j · (1 / (1 + exp (-(B j)))), the second factor being the logistic function's own definition
  show _ * Ideal.div _ (_ + Ideal.exp (-(_))) = _
  rw [h1]
  rfl

/-- The final hyperedge update: tanh of S + A + b. -/
theorem fin_eq (S A : FVec Ideal S200000x64 .f32) (b : FVec Ideal S64 .f32) :
    Host.tanh (addf (addf S A)
        (broadcastInDim S200000x64 ![0, 1] bcast_S1x64_S200000x64_0_1 (broadcastInDim S1x64 ![1] bcast_S64_S1x64_1 b)))
      = Layer.fin S A (broadcastInDim S1x64 ![1] bcast_S64_S1x64_1 b) := by
  funext j
  obtain ⟨p, q, rfl⟩ : ∃ (p : Fin 200000) (q : Fin 64), j = ix2 p q := ⟨j 0, j 1, eq_ix2 j⟩
  have hb := ValueLayout.bcast_1n_rn_apply bcast_S1x64_S200000x64_0_1 (broadcastInDim S1x64 ![1] bcast_S64_S1x64_1 b) p q
  -- at (p, q): tanh (S (p, q) + A (p, q) + b q)
  show Ideal.tanh (_ + _ + _) = _
  rw [hb]
  rfl

end Cert.ReferenceIdeal.RefValue

end
-- ==== Proof.LibGatherScatter.lean ====
/-
  Reading a gather and an accumulating scatter over the FIRST axis at one element.

  * `gather_rows`: rows of an [N × D] matrix taken at an [n × 1] column of start positions; result element (p, q) is the
    matrix at (the start position of p, read signed and clamped into [0, N - 1]; q).
  * `scatterAdd_vec`: updates of length n accumulated into a vector of length N at an [n × 1] column of start positions;
    element c is its old value plus the sum of the updates whose start position, read signed, equals c. A start position
    outside [0, N - 1] equals no c, so its update is dropped.
  * `scatterAdd_rows`: the same for [n × D] row updates accumulated into an [N × D] matrix; element (c, j) gathers the
    updates (e, j) over the rows e whose start position is c.

  All three are generic in the sizes and in the dimension-number record; the record's fields enter as hypotheses.
-/
import Idealize.ShloMosaic.PureOps.Ideal
import Idealize.ShloMosaic.Lib.ValueIdx

namespace Cert.LibGatherScatter

open Idealize.ShloMosaic Idealize.ShloMosaic.ValueIdx

/-- Equal lists read at equal positions give equal entries. -/
theorem getElem_congr' {α : Type} {l l' : List α} (hl : l = l') {k k' : Nat} (hk : k = k') (h : k < l.length) :
    l[k]'h = l'[k']'(by subst hl; subst hk; exact h) := by subst hl; subst hk; rfl

/-! ## The gather of rows -/

/-- rows of a matrix taken at a column of start indices: result (p, q) is the operand at (start index of p, read signed and clamped into [0, N-1]; q). -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (p : Fin n) (q : Fin D) (hN : 0 < N) :
    Host.gather d x idx (ix2 p q) = x (ix2 ⟨min (idx (ix2 p (0 : Fin 1))).toInt.toNat (N - 1), by omega⟩ q) := by
  unfold Host.gather
  congr 1
  have hsk : d.sKept = [1] := by
    show Shape.kept _ (d.collapsedSliceDims ++ d.operandBatchingDims) = [1]
    rw [hcoll, hob]; rfl
  have hbd : d.batchDims = [0] := by
    show Shape.kept _ d.offsetDims = [0]
    rw [hoff]; rfl
  have hsik : d.siKept = [0] := by
    show (List.finRange _).filter (·.val ≠ d.indexVectorDim) = [0]
    rw [hivd]; rfl
  have h0 : (d.operandIdx (ix2 p q) idx (0 : Fin 2)).val = min (idx (ix2 p (0 : Fin 1))).toInt.toNat (N - 1) := by
    have hb : (0 : Fin 2) ∉ d.operandBatchingDims := by rw [hob]; exact List.not_mem_nil
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    simp only [GatherDims.operandIdx, GatherDims.batchCoord_eq_zero _ _ _ hb, GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin 2, X = 0 → ((ix2 p q : (⟨2, ![n, D]⟩ : Shape).Idx) X).val = p.val := fun X hX => by
        subst hX; rfl
      apply e
      rw [getElem_congr' hbd (show List.idxOf _ d.siKept = 0 by rw [hsik]; rfl)]
      rfl
    | ⟨1, _⟩ =>
      unfold GatherDims.siIdx
      rw [dif_pos (by rw [hivd])]
      apply Fin.ext
      show List.idxOf (0 : Fin 2) d.startIndexMap = 0
      rw [hsim]; simp
  have h1 : (d.operandIdx (ix2 p q) idx (1 : Fin 2)).val = q.val := by
    have hb : (1 : Fin 2) ∉ d.operandBatchingDims := by rw [hob]; exact List.not_mem_nil
    have hk : (1 : Fin 2) ∈ d.sKept := by rw [hsk]; simp
    have hm : (1 : Fin 2) ∉ d.startIndexMap := by rw [hsim]; simp
    simp only [GatherDims.operandIdx, GatherDims.batchCoord_eq_zero _ _ _ hb,
      Nat.add_zero, GatherDims.start, dif_neg hm, GatherDims.offCoord, dif_pos hk, Nat.zero_add]
    have e : ∀ X : Fin 2, X = 1 → ((ix2 p q : (⟨2, ![n, D]⟩ : Shape).Idx) X).val = q.val := fun X hX => by
      subst hX; rfl
    apply e
    rw [getElem_congr' hoff (show List.idxOf _ d.sKept = 0 by rw [hsk]; rfl)]
    rfl
  funext a
  apply Fin.ext
  match a with
  | ⟨0, _⟩ => exact h0
  | ⟨1, _⟩ => exact h1

/-! ## The accumulating scatters -/

/-- An update lands on operand element i exactly when, on every axis, start plus window coordinate is i's coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hf := congrFun (Option.some.inj heq) a
      have hv := congrArg Fin.val hf
      simp only at hv
      have := (h a).1
      omega
    · intro hall
      congr 1
      funext a
      apply Fin.ext
      show (d.start j idx a + (d.window j a : ℤ)).toNat = (i a).val
      rw [hall a]; exact Int.toNat_natCast _
  · rename_i h
    constructor
    · intro heq; cases heq
    · intro hall
      exfalso; apply h
      intro a
      rw [hall a]
      exact ⟨Int.natCast_nonneg _, by exact_mod_cast (i a).isLt⟩

/-- Updates of a vector indexed by one column of start positions: update e lands on element c exactly when its start position, read signed, is c. -/
theorem resultIdx?_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (idx : IVec ⟨2, ![n, 1]⟩ w) (e : Fin n) (c : Fin N) :
    d.resultIdx? (ix1 e) idx = some (ix1 c) ↔ (idx (ix2 e (0 : Fin 1))).toInt = (c.val : ℤ) := by
  rw [resultIdx?_eq_some_iff]
  have hsk : d.sKept = [] := by show Shape.kept _ d.insertedWindowDims = []; rw [hins]; rfl
  have hm : (0 : Fin 1) ∈ d.scatterDimsToOperandDims := by rw [hsd]; exact List.mem_singleton.mpr rfl
  have hk : (0 : Fin 1) ∉ d.sKept := by rw [hsk]; exact List.not_mem_nil
  have hst : d.start (ix1 e) idx (0 : Fin 1) = (idx (ix2 e (0 : Fin 1))).toInt := by
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 1, ((ix1 e : (⟨1, ![n]⟩ : Shape).Idx) X).val = e.val := fun X => by
        have hX : X = 0 := Subsingleton.elim _ _
        subst hX; rfl
      exact ee _
    | ⟨1, _⟩ =>
      unfold ScatterDims.siIdx
      rw [dif_pos (by rw [hivd])]
      apply Fin.ext
      show List.idxOf (0 : Fin 1) d.scatterDimsToOperandDims = 0
      rw [hsd]; simp
  have hw : d.window (ix1 e) (0 : Fin 1) = 0 := by
    unfold ScatterDims.window; rw [dif_neg hk]
  constructor
  · intro h
    have h0 : d.start (ix1 e) idx 0 + (d.window (ix1 e) 0 : ℤ) = (c.val : ℤ) := h 0
    rw [hst, hw] at h0
    simpa using h0
  · intro h a
    have ha : a = 0 := Subsingleton.elim _ _
    subst ha
    show d.start (ix1 e) idx 0 + (d.window (ix1 e) 0 : ℤ) = (c.val : ℤ)
    rw [hst, hw, h]
    simp

/-- the accumulating scatter into a vector: element c is what was there plus the sum of the updates whose start index, read signed, is c. -/
theorem scatterAdd_vec {N n w : Nat} (d : ScatterDims ⟨1, ![N]⟩ ⟨2, ![n, 1]⟩ ⟨1, ![n]⟩)
    (huw : d.updateWindowDims = []) (hins : d.insertedWindowDims = [0]) (hsd : d.scatterDimsToOperandDims = [0]) (hivd : d.indexVectorDim = 1)
    (x : FVec Ideal ⟨1, ![N]⟩ .f32) (idx : IVec ⟨2, ![n, 1]⟩ w) (u : FVec Ideal ⟨1, ![n]⟩ .f32) (c : Fin N) :
    Host.scatterAdd d x idx u (ix1 c)
      = x (ix1 c) + ∑ e ∈ Finset.univ.filter (fun e : Fin n => (idx (ix2 e (0 : Fin 1))).toInt = (c.val : ℤ)), u (ix1 e) := by
  show Ideal.hostScatterAdd d x idx u (ix1 c) = _
  unfold Ideal.hostScatterAdd
  congr 1
  refine Finset.sum_bij' (fun jj _ => (jj 0 : Fin n)) (fun e _ => ix1 e) ?_ ?_ ?_ ?_ ?_
  · intro jj hjj
    have h2 := (Finset.mem_filter.1 hjj).2
    rw [eq_ix1 jj] at h2
    exact Finset.mem_filter.2 ⟨Finset.mem_univ _, (resultIdx?_vec d huw hins hsd hivd idx _ c).1 h2⟩
  · intro e he
    exact Finset.mem_filter.2 ⟨Finset.mem_univ _, (resultIdx?_vec d huw hins hsd hivd idx e c).2 (Finset.mem_filter.1 he).2⟩
  · intro jj _; exact (eq_ix1 jj).symm
  · intro e _; rfl
  · intro jj _; exact congrArg u (eq_ix1 jj)

/-- Row updates of a matrix indexed by one column of start rows: update element (e, j') lands on element (c, j) exactly when row e's start, read signed, is c and the columns agree. -/
theorem resultIdx?_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (idx : IVec ⟨2, ![n, 1]⟩ w) (e : Fin n) (j' : Fin D) (c : Fin N) (j : Fin D) :
    d.resultIdx? (ix2 e j') idx = some (ix2 c j) ↔ (idx (ix2 e (0 : Fin 1))).toInt = (c.val : ℤ) ∧ j' = j := by
  rw [resultIdx?_eq_some_iff]
  have hsk : d.sKept = [1] := by show Shape.kept _ d.insertedWindowDims = [1]; rw [hins]; rfl
  have hus : d.uScatter = [0] := by show Shape.kept _ d.updateWindowDims = [0]; rw [huw]; rfl
  have hsik : d.siKept = [0] := by show (List.finRange _).filter (·.val ≠ d.indexVectorDim) = [0]; rw [hivd]; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; simp
  have hst0 : d.start (ix2 e j') idx (0 : Fin 2) = (idx (ix2 e (0 : Fin 1))).toInt := by
    unfold ScatterDims.start
    rw [dif_pos hm0]
    congr 2
    funext b
    match b with
    | ⟨0, _⟩ =>
      unfold ScatterDims.siIdx
      rw [dif_neg (by rw [hivd]; simp)]
      unfold ScatterDims.siCoord
      apply Fin.ext
      simp only [Fin.val_cast]
      have ee : ∀ X : Fin 2, X = 0 → ((ix2 e j' : (⟨2, ![n, D]⟩ : Shape).Idx) X).val = e.val := fun X hX => by
        subst hX; rfl
      apply ee
      rw [getElem_congr' hus (show List.idxOf _ d.siKept = 0 by rw [hsik]; rfl)]
      rfl
    | ⟨1, _⟩ =>
      unfold ScatterDims.siIdx
      rw [dif_pos (by rw [hivd])]
      apply Fin.ext
      show List.idxOf (0 : Fin 2) d.scatterDimsToOperandDims = 0
      rw [hsd]; simp
  have hst1 : d.start (ix2 e j') idx (1 : Fin 2) = 0 := by
    unfold ScatterDims.start; rw [dif_neg hm1]
  have hw0 : d.window (ix2 e j') (0 : Fin 2) = 0 := by
    unfold ScatterDims.window; rw [dif_neg hk0]
  have hw1 : d.window (ix2 e j') (1 : Fin 2) = j'.val := by
    unfold ScatterDims.window; rw [dif_pos hk1]
    have ee : ∀ X : Fin 2, X = 1 → ((ix2 e j' : (⟨2, ![n, D]⟩ : Shape).Idx) X).val = j'.val := fun X hX => by
      subst hX; rfl
    apply ee
    rw [getElem_congr' huw (show List.idxOf _ d.sKept = 0 by rw [hsk]; rfl)]
    rfl
  constructor
  · intro h
    have h0 : d.start (ix2 e j') idx 0 + (d.window (ix2 e j') 0 : ℤ) = (c.val : ℤ) := h 0
    have h1 : d.start (ix2 e j') idx 1 + (d.window (ix2 e j') 1 : ℤ) = (j.val : ℤ) := h 1
    rw [hst0, hw0] at h0
    rw [hst1, hw1] at h1
    exact ⟨by simpa using h0, Fin.ext (by omega)⟩
  · rintro ⟨h, rfl⟩ a
    match a with
    | ⟨0, _⟩ =>
      show d.start (ix2 e j') idx 0 + (d.window (ix2 e j') 0 : ℤ) = (c.val : ℤ)
      rw [hst0, hw0, h]; simp
    | ⟨1, _⟩ =>
      show d.start (ix2 e j') idx 1 + (d.window (ix2 e j') 1 : ℤ) = (j'.val : ℤ)
      rw [hst1, hw1]; simp

/-- the accumulating scatter of rows into a matrix: element (c, j) is what was there plus the sum over the rows e whose start index, read signed, is c of the update at (e, j). -/
theorem scatterAdd_rows {N D n w : Nat} (d : ScatterDims ⟨2, ![N, D]⟩ ⟨2, ![n, 1]⟩ ⟨2, ![n, D]⟩)
    (huw : d.updateWindowDims = [1]) (hins : d.insertedWindowDims = [0]) (hsd : d.scatterDimsToOperandDims = [0]) (hivd : d.indexVectorDim = 1)
    (x : FVec Ideal ⟨2, ![N, D]⟩ .f32) (idx : IVec ⟨2, ![n, 1]⟩ w) (u : FVec Ideal ⟨2, ![n, D]⟩ .f32) (c : Fin N) (j : Fin D) :
    Host.scatterAdd d x idx u (ix2 c j)
      = x (ix2 c j) + ∑ e ∈ Finset.univ.filter (fun e : Fin n => (idx (ix2 e (0 : Fin 1))).toInt = (c.val : ℤ)), u (ix2 e j) := by
  show Ideal.hostScatterAdd d x idx u (ix2 c j) = _
  unfold Ideal.hostScatterAdd
  congr 1
  have key : ∀ jj : (⟨2, ![n, D]⟩ : Shape).Idx, d.resultIdx? jj idx = some (ix2 c j) →
      (idx (ix2 (jj 0 : Fin n) (0 : Fin 1))).toInt = (c.val : ℤ) ∧ (jj 1 : Fin D) = j := fun jj h => by
    rw [eq_ix2 jj] at h
    exact (resultIdx?_rows d huw hins hsd hivd idx _ _ c j).1 h
  refine Finset.sum_bij' (fun jj _ => (jj 0 : Fin n)) (fun e _ => ix2 e j) ?_ ?_ ?_ ?_ ?_
  · intro jj hjj
    exact Finset.mem_filter.2 ⟨Finset.mem_univ _, (key jj (Finset.mem_filter.1 hjj).2).1⟩
  · intro e he
    exact Finset.mem_filter.2 ⟨Finset.mem_univ _,
      (resultIdx?_rows d huw hins hsd hivd idx e j c j).2 ⟨(Finset.mem_filter.1 he).2, rfl⟩⟩
  · intro jj hjj
    have h2 := (key jj (Finset.mem_filter.1 hjj).2).2
    rw [eq_ix2 jj]
    exact congrArg (fun t => ix2 (jj 0 : Fin n) t) h2.symm
  · intro e _; rfl
  · intro jj hjj
    have h2 := (key jj (Finset.mem_filter.1 hjj).2).2
    show u jj = u (ix2 (jj 0 : Fin n) j)
    rw [← h2]
    exact congrArg u (eq_ix2 jj)

end Cert.LibGatherScatter
-- ==== Proof.Commute.lean ====
/-
  Taking rows commutes with a matrix product on the right: row p of (X·W) taken at a start index is the product of
  the row of X taken at that start index with W, because entry (p, q) of either is the sum over k of
  X(start of p, k) · W(k, q). Stated for any row counts and any record of gather dimension numbers that takes whole
  rows at one column of start indices.
-/
import proofs.«158519_j20126216749524_1_alg».proof.Proof.Spec
import proofs.«158519_j20126216749524_1_alg».proof.Proof.LibGatherScatter
import Idealize.ShloMosaic.Lib.ValueIdx

noncomputable section

namespace Cert.Layer

open Idealize.ShloMosaic Idealize.ShloMosaic.ValueIdx

/-- Rows of a product are the products of the rows. -/
theorem gather_mm {N n w : ℕ} (d : GatherDims ⟨2, ![N, 64]⟩ ⟨2, ![n, 1]⟩ ⟨2, ![n, 64]⟩)
    (hoff : d.offsetDims = [1]) (hcoll : d.collapsedSliceDims = [0]) (hob : d.operandBatchingDims = [])
    (hsim : d.startIndexMap = [0]) (hivd : d.indexVectorDim = 1) (hss : d.sliceSizes = ![1, 64]) (hN : 0 < N)
    (X : Mat N 64) (W : Mat 64 64) (idx : IVec ⟨2, ![n, 1]⟩ w) :
    Host.gather d (mm X W) idx = mm (Host.gather d X idx) W := by
  funext j
  obtain ⟨p, q, rfl⟩ : ∃ (p : Fin n) (q : Fin 64), j = ix2 p q := ⟨j 0, j 1, eq_ix2 j⟩
  -- entry (p, q) of the rows of X·W is the sum over k of X(start of p, k) · W(k, q)
  rw [Cert.LibGatherScatter.gather_rows d hoff hcoll hob hsim hivd hss (mm X W) idx p q hN, mm_apply, mm_apply]
  -- and so is entry (p, q) of (rows of X)·W, term by term
  refine Finset.sum_congr rfl fun k _ => ?_
  rw [Cert.LibGatherScatter.gather_rows d hoff hcoll hob hsim hivd hss X idx p k hN]

end Cert.Layer

end
-- ==== Proof.RefTerms.lean ====
/-
  What the reference computes, written in the layer's functions. The reference's first result is the node update
  tanh((N·Wn + bn) ∘ w), with the node weights w the rows of the hyperedge gate taken at the incidence's hyperedge
  indices and summed into the incidence's node segments. Its second result is tanh(H·Ws + a + bh), with a the messages
  summed into the adjacency's destination segments, a message being a row of H times Wh weighted by the logistic
  function of a row of the first result times Wv. Taking rows commutes with the product on the right, so each message
  factor is a row of a product of whole matrices.
-/
import proofs.«158519_j20126216749524_1_alg».proof.Proof.RefSide
import proofs.«158519_j20126216749524_1_alg».proof.Proof.Commute

noncomputable section

namespace Cert.ReferenceIdeal.RefValue

open Cert.ReferenceIdeal Cert.ReferenceIdeal.Gen Idealize.ShloMosaic Idealize.ShloMosaic.TcCoe
open Idealize.ShloMosaic.ValueIdx

/-- A vector of 64 entries as a one-row matrix. -/
def row (b : FVec Ideal S64 .f32) : FVec Ideal S1x64 .f32 := broadcastInDim S1x64 ![1] bcast_S64_S1x64_1 b

/-- A vector of start indices as a one-column matrix. -/
def col (a : (⟨S2000000, .i32⟩ : BufTy).Contents (Elt Ideal)) : (⟨S2000000x1, .i32⟩ : BufTy).Contents (Elt Ideal) :=
  broadcastInDim S2000000x1 ![0] bcast_S2000000_S2000000x1_0 a

/-- Start indices with the negative ones shifted up by the row count n. -/
def wrap (n : BitVec 32) (a : (⟨S2000000, .i32⟩ : BufTy).Contents (Elt Ideal)) : (⟨S2000000, .i32⟩ : BufTy).Contents (Elt Ideal) :=
  select (cmpi .slt a (broadcastInDim S2000000 ![] bcast_S_S2000000 (constantI S_ 32 0#32)))
    (addi a (broadcastInDim S2000000 ![] bcast_S_S2000000 (constantI S_ 32 n))) a

/-- Rows of a 200000-row matrix taken at a column of start indices. -/
def rows200 (x : FVec Ideal S200000x64 .f32) (i : (⟨S2000000x1, .i32⟩ : BufTy).Contents (Elt Ideal)) : FVec Ideal S2000000x64 .f32 :=
  Host.gather gather_S200000x64_S2000000x1_S2000000x64_1_0_n_n_0_1_164 x i

/-- Rows of a 500000-row matrix taken at a column of start indices. -/
def rows500 (x : FVec Ideal S500000x64 .f32) (i : (⟨S2000000x1, .i32⟩ : BufTy).Contents (Elt Ideal)) : FVec Ideal S2000000x64 .f32 :=
  Host.gather gather_S500000x64_S2000000x1_S2000000x64_1_0_n_n_0_1_164 x i

/-- Rows summed into 500000 segments, from zeros. -/
def sum500 (i : (⟨S2000000x1, .i32⟩ : BufTy).Contents (Elt Ideal)) (u : FVec Ideal S2000000x64 .f32) : FVec Ideal S500000x64 .f32 :=
  Host.scatterAdd scatter_S500000x64_S2000000x1_S2000000x64_1_0_0_1
    (broadcastInDim S500000x64 ![] bcast_S_S500000x64 (constant S_ .f32 0x00000000#32)) i u

/-- Rows summed into 200000 segments, from zeros. -/
def sum200 (i : (⟨S2000000x1, .i32⟩ : BufTy).Contents (Elt Ideal)) (u : FVec Ideal S2000000x64 .f32) : FVec Ideal S200000x64 .f32 :=
  Host.scatterAdd scatter_S200000x64_S2000000x1_S2000000x64_1_0_0_1
    (broadcastInDim S200000x64 ![] bcast_S_S200000x64 (constant S_ .f32 0x00000000#32)) i u

variable (x0 : FVec Ideal S500000x64 .f32) (x1 : FVec Ideal S200000x64 .f32)
  (x2 x3 x4 x5 x6 : (⟨S2000000, .i32⟩ : BufTy).Contents (Elt Ideal))
  (x7 : FVec Ideal S64x64 .f32) (x8 : FVec Ideal S64 .f32) (x9 : FVec Ideal S64x64 .f32) (x10 : FVec Ideal S64 .f32)
  (x11 x12 x13 : FVec Ideal S64x64 .f32) (x14 : FVec Ideal S64 .f32)

/-- The updated node features. -/
def out0 : FVec Ideal S500000x64 .f32 :=
  Layer.upd x0 x9 (row x10) (sum500 (col x2) (rows200 (Layer.gate x1 x7 (row x8)) (col (wrap 200000#32 x3))))

/-- The updated hyperedge features. -/
def out1 : FVec Ideal S200000x64 .f32 :=
  Layer.fin (Layer.mm x1 x13)
    (sum200 (col x4) (Layer.msg (rows200 (Layer.mm x1 x11) (col (wrap 200000#32 x5)))
      (rows500 (Layer.mm (out0 x0 x1 x2 x3 x7 x8 x9 x10) x12) (col (wrap 500000#32 x6)))))
    (row x14)

/-- The reference's first result is the updated node features. -/
theorem term0_eq :
    Host.tanh (mulf (addf (Host.dotGeneral dot_S500000x64_S64x64_S500000x64_1_0_0_1_n_n none x0 x9) (broadcastInDim S500000x64 ![0, 1] bcast_S1x64_S500000x64_0_1 (broadcastInDim S1x64 ![1] bcast_S64_S1x64_1 x10))) (Host.scatterAdd scatter_S500000x64_S2000000x1_S2000000x64_1_0_0_1 (broadcastInDim S500000x64 ![] bcast_S_S500000x64 (constant S_ .f32 0x00000000#32)) (broadcastInDim S2000000x1 ![0] bcast_S2000000_S2000000x1_0 x2) (Host.gather gather_S200000x64_S2000000x1_S2000000x64_1_0_n_n_0_1_164 (Host.divf (broadcastInDim S200000x64 ![] bcast_S_S200000x64 (constant S_ .f32 0x3F800000#32)) (addf (broadcastInDim S200000x64 ![] bcast_S_S200000x64 (constant S_ .f32 0x3F800000#32)) (Host.exp (Host.negf (addf (Host.dotGeneral dot_S200000x64_S64x64_S200000x64_1_0_0_1_n_n none x1 x7) (broadcastInDim S200000x64 ![0, 1] bcast_S1x64_S200000x64_0_1 (broadcastInDim S1x64 ![1] bcast_S64_S1x64_1 x8))))))) (broadcastInDim S2000000x1 ![0] bcast_S2000000_S2000000x1_0 (select (cmpi .slt x3 (broadcastInDim S2000000 ![] bcast_S_S2000000 (constantI S_ 32 0#32))) (addi x3 (broadcastInDim S2000000 ![] bcast_S_S2000000 (constantI S_ 32 200000#32))) x3)))))
      = out0 x0 x1 x2 x3 x7 x8 x9 x10 := by
  rw [upd_eq, gate_eq]
  rfl

/-- The reference's second result is the updated hyperedge features. -/
theorem term1_eq :
    Host.tanh (addf (addf (Host.dotGeneral dot_S200000x64_S64x64_S200000x64_1_0_0_1_n_n none x1 x13) (Host.scatterAdd scatter_S200000x64_S2000000x1_S2000000x64_1_0_0_1 (broadcastInDim S200000x64 ![] bcast_S_S200000x64 (constant S_ .f32 0x00000000#32)) (broadcastInDim S2000000x1 ![0] bcast_S2000000_S2000000x1_0 x4) (mulf (Host.dotGeneral dot_S2000000x64_S64x64_S2000000x64_1_0_0_1_n_n none (Host.gather gather_S200000x64_S2000000x1_S2000000x64_1_0_n_n_0_1_164 x1 (broadcastInDim S2000000x1 ![0] bcast_S2000000_S2000000x1_0 (select (cmpi .slt x5 (broadcastInDim S2000000 ![] bcast_S_S2000000 (constantI S_ 32 0#32))) (addi x5 (broadcastInDim S2000000 ![] bcast_S_S2000000 (constantI S_ 32 200000#32))) x5))) x11) (Host.divf (broadcastInDim S2000000x64 ![] bcast_S_S2000000x64 (constant S_ .f32 0x3F800000#32)) (addf (broadcastInDim S2000000x64 ![] bcast_S_S2000000x64 (constant S_ .f32 0x3F800000#32)) (Host.exp (Host.negf (Host.dotGeneral dot_S2000000x64_S64x64_S2000000x64_1_0_0_1_n_n none (Host.gather gather_S500000x64_S2000000x1_S2000000x64_1_0_n_n_0_1_164 (Host.tanh (mulf (addf (Host.dotGeneral dot_S500000x64_S64x64_S500000x64_1_0_0_1_n_n none x0 x9) (broadcastInDim S500000x64 ![0, 1] bcast_S1x64_S500000x64_0_1 (broadcastInDim S1x64 ![1] bcast_S64_S1x64_1 x10))) (Host.scatterAdd scatter_S500000x64_S2000000x1_S2000000x64_1_0_0_1 (broadcastInDim S500000x64 ![] bcast_S_S500000x64 (constant S_ .f32 0x00000000#32)) (broadcastInDim S2000000x1 ![0] bcast_S2000000_S2000000x1_0 x2) (Host.gather gather_S200000x64_S2000000x1_S2000000x64_1_0_n_n_0_1_164 (Host.divf (broadcastInDim S200000x64 ![] bcast_S_S200000x64 (constant S_ .f32 0x3F800000#32)) (addf (broadcastInDim S200000x64 ![] bcast_S_S200000x64 (constant S_ .f32 0x3F800000#32)) (Host.exp (Host.negf (addf (Host.dotGeneral dot_S200000x64_S64x64_S200000x64_1_0_0_1_n_n none x1 x7) (broadcastInDim S200000x64 ![0, 1] bcast_S1x64_S200000x64_0_1 (broadcastInDim S1x64 ![1] bcast_S64_S1x64_1 x8))))))) (broadcastInDim S2000000x1 ![0] bcast_S2000000_S2000000x1_0 (select (cmpi .slt x3 (broadcastInDim S2000000 ![] bcast_S_S2000000 (constantI S_ 32 0#32))) (addi x3 (broadcastInDim S2000000 ![] bcast_S_S2000000 (constantI S_ 32 200000#32))) x3)))))) (broadcastInDim S2000000x1 ![0] bcast_S2000000_S2000000x1_0 (select (cmpi .slt x6 (broadcastInDim S2000000 ![] bcast_S_S2000000 (constantI S_ 32 0#32))) (addi x6 (broadcastInDim S2000000 ![] bcast_S_S2000000 (constantI S_ 32 500000#32))) x6))) x12)))))))) (broadcastInDim S200000x64 ![0, 1] bcast_S1x64_S200000x64_0_1 (broadcastInDim S1x64 ![1] bcast_S64_S1x64_1 x14)))
      = out1 x0 x1 x2 x3 x4 x5 x6 x7 x8 x9 x10 x11 x12 x13 x14 := by
  rw [fin_eq, dot200k_eq, msg_eq, dot2M_eq, dot2M_eq, upd_eq, gate_eq]
  rw [← Layer.gather_mm gather_S200000x64_S2000000x1_S2000000x64_1_0_n_n_0_1_164 rfl rfl rfl rfl rfl rfl (by decide) x1 x11,
    ← Layer.gather_mm gather_S500000x64_S2000000x1_S2000000x64_1_0_n_n_0_1_164 rfl rfl rfl rfl rfl rfl (by decide) _ x12]
  rfl

end Cert.ReferenceIdeal.RefValue

end
-- ==== Proof.Bridge.lean ====
/-
  The kernel program's two results, in the layer's functions of the launch arrays. Walking the program back from its
  results through the regions (each a closed function of its input arrays) and the host operations between them gives
  the same composition the reference computes: the updated node features and the updated hyperedge features.
-/
import proofs.«158519_j20126216749524_1_alg».proof.Proof.FoldA
import proofs.«158519_j20126216749524_1_alg».proof.Proof.Region0
import proofs.«158519_j20126216749524_1_alg».proof.Proof.Region1
import proofs.«158519_j20126216749524_1_alg».proof.Proof.Region2
import proofs.«158519_j20126216749524_1_alg».proof.Proof.Region3
import proofs.«158519_j20126216749524_1_alg».proof.Proof.RefTerms
import proofs.«158519_j20126216749524_1_alg».proof.Proof.LibRowSpread
import proofs.«158519_j20126216749524_1_alg».proof.Proof.LibBroadcastInDim

noncomputable section

namespace Cert.Bridge

open Idealize.ShloMosaic Idealize.ShloMosaic.TcCoe Idealize.SL.Sem Idealize.ShloMosaic.ValueIdx

/-! ## The host functions of the two programs are the same functions -/

/-- A vector recast as a one-row matrix and the vector laid along a one-row matrix have the same entries. -/
theorem asRow_eq (b : FVec Ideal Cert.KernelIdeal.S64 .f32) : Cert.KernelIdeal.Fold.asRow (F := Ideal) b = Cert.ReferenceIdeal.RefValue.row b := by
  funext j
  obtain ⟨z, q, rfl⟩ : ∃ (z : Fin 1) (q : Fin 64), j = ix2 z q := ⟨j 0, j 1, eq_ix2 j⟩
  unfold Cert.KernelIdeal.Fold.asRow Cert.ReferenceIdeal.RefValue.row
  exact (Cert.Lib.RowSpread.asRow_apply b _ z q).trans (Idealize.ShloMosaic.ValueLayout.bcast_n_1n_apply _ b z q).symm

theorem col_eq (a : (⟨Cert.KernelIdeal.S2000000, .i32⟩ : BufTy).Contents (Elt Ideal)) :
    Cert.KernelIdeal.Fold.col (F := Ideal) a = Cert.ReferenceIdeal.RefValue.col a := rfl
theorem wrap_eq (n : BitVec 32) (a : (⟨Cert.KernelIdeal.S2000000, .i32⟩ : BufTy).Contents (Elt Ideal)) :
    Cert.KernelIdeal.Fold.wrap (F := Ideal) n a = Cert.ReferenceIdeal.RefValue.wrap n a := rfl
theorem rows200_eq (x : FVec Ideal Cert.KernelIdeal.S200000x64 .f32) (i : (⟨Cert.KernelIdeal.S2000000x1, .i32⟩ : BufTy).Contents (Elt Ideal)) :
    Cert.KernelIdeal.Fold.rows200 (F := Ideal) x i = Cert.ReferenceIdeal.RefValue.rows200 x i := rfl
theorem rows500_eq (x : FVec Ideal Cert.KernelIdeal.S500000x64 .f32) (i : (⟨Cert.KernelIdeal.S2000000x1, .i32⟩ : BufTy).Contents (Elt Ideal)) :
    Cert.KernelIdeal.Fold.rows500 (F := Ideal) x i = Cert.ReferenceIdeal.RefValue.rows500 x i := rfl
theorem sum500_eq (i : (⟨Cert.KernelIdeal.S2000000x1, .i32⟩ : BufTy).Contents (Elt Ideal)) (u : FVec Ideal Cert.KernelIdeal.S2000000x64 .f32) :
    Cert.KernelIdeal.Fold.sum500 (F := Ideal) i u = Cert.ReferenceIdeal.RefValue.sum500 i u := rfl
theorem sum200_eq (i : (⟨Cert.KernelIdeal.S2000000x1, .i32⟩ : BufTy).Contents (Elt Ideal)) (u : FVec Ideal Cert.KernelIdeal.S2000000x64 .f32) :
    Cert.KernelIdeal.Fold.sum200 (F := Ideal) i u = Cert.ReferenceIdeal.RefValue.sum200 i u := rfl

/-! ## The kernel program's results -/

open Cert.KernelIdeal Cert.KernelIdeal.Gen in
/-- The first result: the updated node features of the launch arrays. -/
theorem kernel0 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W8 m ρ c (Proc.devRef .tc Cert.KernelIdeal.main_v13_0)
      = Cert.ReferenceIdeal.RefValue.out0 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  rw [Fold.W8_v13_0, Region1.final1_5 (V3 m ρ) c, Fold.V3_arg0, Fold.V3_arg9, Fold.V3_v12, Fold.V3_v11,
    Region0.final0_5 (V1 m ρ) c, Fold.V1_arg1, Fold.V1_arg7, Fold.V1_v0]
  rw [asRow_eq, asRow_eq, col_eq, col_eq, wrap_eq, rows200_eq, sum500_eq]
  rfl

open Cert.KernelIdeal Cert.KernelIdeal.Gen in
/-- The second result: the updated hyperedge features of the launch arrays. -/
theorem kernel1 (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W8 m ρ c (Proc.devRef .tc Cert.KernelIdeal.main_v33)
      = Cert.ReferenceIdeal.RefValue.out1 (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) := by
  rw [Fold.W8_v33, Region3.final3_3 (V7 m ρ) c, Fold.V7_v1_2, Fold.V7_v31, Fold.V7_v32,
    Region2.final2_2 (V5 m ρ) c, Fold.V5_v20, Fold.V5_v27,
    Region0.final0_7 (V1 m ρ) c, Region0.final0_6 (V1 m ρ) c, Region1.final1_6 (V3 m ρ) c,
    Fold.V3_arg0, Fold.V3_arg9, Fold.V3_arg12, Fold.V3_v12, Fold.V3_v11,
    Region0.final0_5 (V1 m ρ) c, Fold.V1_arg1, Fold.V1_arg7, Fold.V1_arg11, Fold.V1_arg13, Fold.V1_v0]
  simp only [asRow_eq, col_eq, wrap_eq, rows200_eq, rows500_eq, sum500_eq, sum200_eq]
  rfl

end Cert.Bridge

end
-- ==== Proof.lean ====
/-
  The certificate of the hypergraph layer: a kernel program of four kernel regions against a plain reference, equal
  over the extended reals.

  The layer updates node features N and hyperedge features H over an incidence list and an adjacency list:
    gate    = logistic(H·Wg + bg)
    weight  = the rows of gate taken at the incidence's hyperedge indices, summed into the incidence's node segments
    N'      = tanh((N·Wn + bn) ∘ weight)
    message = (row of H at the adjacency's source) · Wh  ∘  logistic((row of N' at the adjacency's node) · Wv)
    H'      = tanh(H·Ws + (messages summed into the adjacency's destination segments) + bh)
  and returns (N', H'). The kernel program computes the dense parts in four row-blocked kernel regions and multiplies
  BEFORE it takes rows: it forms H·Wh and N'·Wv once per row and then takes rows of the products, where the reference
  takes rows first and multiplies after. Row p of a product X·W is the product of row p of X with W, so the two orders
  give the same array entry by entry; no other law is used, and none needs the inputs to be finite.

  The frames of the two kernel programs are the generated ones; the reference's frame is its generated run. The
  idealization rewrote nothing, so there is nothing to preserve. For the value claim, the kernel program's run is read
  with its two results named at the last boundary's contents, each region's result arrays are closed functions of its
  input arrays (one module per region), the boundaries are walked back to the launch arrays, and the reference's run
  term is rewritten into the same functions.
-/
import proofs.«158519_j20126216749524_1_alg».proof.Defs
import proofs.«158519_j20126216749524_1_alg».proof.Proof.Gen.Kernel
import proofs.«158519_j20126216749524_1_alg».proof.Proof.Gen.Kernel.Frame
import proofs.«158519_j20126216749524_1_alg».proof.Proof.Gen.KernelIdeal
import proofs.«158519_j20126216749524_1_alg».proof.Proof.Gen.KernelIdeal.Frame
import proofs.«158519_j20126216749524_1_alg».proof.Proof.Gen.ReferenceIdeal
import proofs.«158519_j20126216749524_1_alg».proof.Proof.Gen.Pre_finite_inputs
import proofs.«158519_j20126216749524_1_alg».proof.Proof.Gen.ReferenceIdeal.Run
import proofs.«158519_j20126216749524_1_alg».proof.Proof.RunValue
import proofs.«158519_j20126216749524_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the updated node features and the updated hyperedge features of the launch arrays. -/
theorem algebraic : Cert.algebraic_KernelIdeal_ReferenceIdeal := by
  intro m ρ m' ρ' _ hagree
  refine ⟨fun c => Cert.ReferenceIdeal.RefValue.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.RefValue.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ?_) (Cert.KernelIdeal.GenR.run_results (F := Ideal) m ρ)
    obtain ⟨h0, h1, hargs⟩ := h c
    exact ⟨h0.trans (Cert.Bridge.kernel0 m ρ c), h1.trans (Cert.Bridge.kernel1 m ρ c), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8, e9, e10, e11, e12, e13, e14⟩ := hagree c
    refine ⟨?_, ?_, hargs⟩
    · refine (h0.trans (Cert.ReferenceIdeal.RefValue.term0_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)))).trans ?_
      rw [e0, e1, e2, e3, e7, e8, e9, e10]
    · refine (h1.trans (Cert.ReferenceIdeal.RefValue.term1_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)))).trans ?_
      rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
